-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_2)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_2) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x2000000 : Shape := ⟨2, ![2, 2000000]⟩
abbrev S2000000x32 : Shape := ⟨2, ![2000000, 32]⟩
abbrev S32x32 : Shape := ⟨2, ![32, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S2000000x32 : S_.BroadcastsInDim S2000000x32 (![] : Fin 0 → Fin S2000000x32.rank)
  reducesTo_S2000000x32_S_d0_1 : S2000000x32.ReducesTo [0, 1] S_
  bcast_S_S32x32 : S_.BroadcastsInDim S32x32 (![] : Fin 0 → Fin S32x32.rank)
  reducesTo_S32x32_S_d0_1 : S32x32.ReducesTo [0, 1] S_
  bcast_S_S2x2000000 : S_.BroadcastsInDim S2x2000000 (![] : Fin 0 → Fin S2x2000000.rank)
  reducesTo_S2x2000000_S_d0_1 : S2x2000000.ReducesTo [0, 1] S_

variable [Facts]

def fn_part2 {F : FTy → Type} [FloatOps F] (main_arg1 : IVec S2x2000000 32) (main_arg8 : FVec F S32x32 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_c_14 : IVec S_ 32 := constantI S_ 32 0#32
  let main_v39 : IVec S2x2000000 32 := broadcastInDim S2x2000000 ![] bcast_S_S2x2000000 main_c_14
  let main_v40 : IVec S2x2000000 1 := cmpi .sge main_arg1 main_v39
  let main_c_15 : IVec S_ 1 := constantI S_ 1 1#1
  let main_v41 : IVec S_ 1 := (fun x v => Host.reduce IntOp.andi x v reducesTo_S2x2000000_S_d0_1 h_S_) main_v40 main_c_15
  let main_v42 : IVec S_ 1 := andi main_v38 main_v41
  let main_c_16 : IVec S_ 32 := constantI S_ 32 100000#32
  let main_v43 : IVec S2x2000000 32 := broadcastInDim S2x2000000 ![] bcast_S_S2x2000000 main_c_16
  let main_v44 : IVec S2x2000000 1 := cmpi .slt main_arg1 main_v43
  let main_c_17 : IVec S_ 1 := constantI S_ 1 1#1
  let main_v45 : IVec S_ 1 := (fun x v => Host.reduce IntOp.andi x v reducesTo_S2x2000000_S_d0_1 h_S_) main_v44 main_c_17
  let main_v46 : IVec S_ 1 := andi main_v42 main_v45
  main_v46

def fn_part1 {F : FTy → Type} [FloatOps F] (main_arg1 : IVec S2x2000000 32) (main_arg5 : FVec F S32x32 .f32) (main_arg6 : FVec F S32x32 .f32) (main_arg7 : FVec F S32x32 .f32) (main_arg8 : FVec F S32x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg1 main_arg8 main_v33

def fn {F : FTy → Type} [FloatOps F] (main_arg0 : FVec F S100000x32 .f32) (main_arg1 : IVec S2x2000000 32) (main_arg2 : FVec F S2000000x32 .f32) (main_arg3 : FVec F S32x32 .f32) (main_arg4 : FVec F S32x32 .f32) (main_arg5 : FVec F S32x32 .f32) (main_arg6 : FVec F S32x32 .f32) (main_arg7 : FVec F S32x32 .f32) (main_arg8 : FVec F S32x32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S2000000x32 .f32 := Host.absf main_arg2
  let main_cst_0 : FVec F S_ .f32 := constant S_ .f32 0x7F800000#32
  let main_v5 : FVec F S2000000x32 .f32 := broadcastInDim S2000000x32 ![] bcast_S_S2000000x32 main_cst_0
  let main_v6 : IVec S2000000x32 1 := cmpf .olt main_v4 main_v5
  let main_c_1 : IVec S_ 1 := constantI S_ 1 1#1
  let main_v7 : IVec S_ 1 := (fun x v => Host.reduce IntOp.andi x v reducesTo_S2000000x32_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg1 main_arg5 main_arg6 main_arg7 main_arg8 main_v13 main_v16
-- ==== Kernel.lean ====
abbrev S100000x32 : Shape := ⟨2, ![100000, 32]⟩
abbrev S2x2000000 : Shape := ⟨2, ![2, 2000000]⟩
abbrev S2000000x32 : Shape := ⟨2, ![2000000, 32]⟩
abbrev S32x32 : Shape := ⟨2, ![32, 32]⟩
abbrev S1x2000000 : Shape := ⟨2, ![1, 2000000]⟩
abbrev S2000000 : Shape := ⟨1, ![2000000]⟩
abbrev S5000x32 : Shape := ⟨2, ![5000, 32]⟩
abbrev S500000x128 : Shape := ⟨2, ![500000, 128]⟩
abbrev S4x4 : Shape := ⟨2, ![4, 4]⟩
abbrev S_ : Shape := ⟨0, ![]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S10000x128 : Shape := ⟨2, ![10000, 128]⟩
abbrev S2000000x1 : Shape := ⟨2, ![2000000, 1]⟩
abbrev S1 : Shape := ⟨1, ![1]⟩
abbrev S1x1 : Shape := ⟨2, ![1, 1]⟩

abbrev nBuf : Space → Nat
  | .hbm => 88
  | .vmem => 16
  | .smem => 0
  | _ => 0

abbrev bufTy : (tb : Table) → Fin (tcTables nBuf tb) → BufTy
  | .hbm, ⟨0, _⟩ => ⟨S100000x32, .f32⟩
  | .hbm, ⟨1, _⟩ => ⟨S2x2000000, .i32⟩
  | .hbm, ⟨2, _⟩ => ⟨S2000000x32, .f32⟩
  | .hbm, ⟨3, _⟩ => ⟨S32x32, .f32⟩
  | .hbm, ⟨4, _⟩ => ⟨S32x32, .f32⟩
  | .hbm, ⟨5, _⟩ => ⟨S32x32, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S1x2000000, .i32⟩
  | .hbm, ⟨10, _⟩ => ⟨S2000000, .i32⟩
  | .hbm, ⟨11, _⟩ => ⟨S1x2000000, .i32⟩
  | .hbm, ⟨12, _⟩ => ⟨S2000000, .i32⟩
  | .hbm, ⟨13, _⟩ => ⟨S32x32, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S100000x32, .f32⟩
  | .hbm, ⟨18, _⟩ => ⟨S100000x32, .f32⟩
  | .hbm, ⟨19, _⟩ => ⟨S100000x32, .f32⟩
  | .hbm, ⟨20, _⟩ => ⟨S500000x128, .f32⟩
  | .hbm, ⟨21, _⟩ => ⟨S4x4, .i32⟩
  | .hbm, ⟨22, _⟩ => ⟨S4x4, .i32⟩
  | .hbm, ⟨23, _⟩ => ⟨S_, .i32⟩
  | .hbm, ⟨24, _⟩ => ⟨S4x4, .i32⟩
  | .hbm, ⟨25, _⟩ => ⟨S4x4, .i32⟩
  | .hbm, ⟨26, _⟩ => ⟨S4x4, .i1⟩
  | .hbm, ⟨27, _⟩ => ⟨S4x4, .f32⟩
  | .hbm, ⟨28, _⟩ => ⟨S4x1x4x1, .f32⟩
  | .hbm, ⟨29, _⟩ => ⟨S1x32x1x32, .f32⟩
  | .hbm, ⟨30, _⟩ => ⟨S4x32x4x32, .f32⟩
  | .hbm, ⟨31, _⟩ => ⟨S4x32x4x32, .f32⟩
  | .hbm, ⟨32, _⟩ => ⟨S4x32x4x32, .f32⟩
  | .hbm, ⟨33, _⟩ => ⟨S128x128, .f32⟩
  | .hbm, ⟨34, _⟩ => ⟨S500000x128, .f32⟩
  | .hbm, ⟨35, _⟩ => ⟨S2000000x32, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S1, .i32⟩
  | .hbm, ⟨45, _⟩ => ⟨S_, .i32⟩
  | .hbm, ⟨46, _⟩ => ⟨S2000000x1, .i32⟩
  | .hbm, ⟨47, _⟩ => ⟨S2000000x1, .i1⟩
  | .hbm, ⟨48, _⟩ => ⟨S1x1, .i32⟩
  | .hbm, ⟨49, _⟩ => ⟨S2000000x1, .i32⟩
  | .hbm, ⟨50, _⟩ => ⟨S2000000x1, .i1⟩
  | .hbm, ⟨51, _⟩ => ⟨S2000000x1, .i1⟩
  | .hbm, ⟨52, _⟩ => ⟨S_, .i1⟩
  | .hbm, ⟨53, _⟩ => ⟨S2000000, .i1⟩
  | .hbm, ⟨54, _⟩ => ⟨S2000000x32, .f32⟩
  | .hbm, ⟨55, _⟩ => ⟨S2000000x32, .i1⟩
  | .hbm, ⟨56, _⟩ => ⟨S_, .f32⟩
  | .hbm, ⟨57, _⟩ => ⟨S2000000x32, .f32⟩
  | .hbm, ⟨58, _⟩ => ⟨S2000000x32, .f32⟩
  | .hbm, ⟨59, _⟩ => ⟨S_, .i32⟩
  | .hbm, ⟨60, _⟩ => ⟨S2000000, .i32⟩
  | .hbm, ⟨61, _⟩ => ⟨S2000000, .i1⟩
  | .hbm, ⟨62, _⟩ => ⟨S_, .i32⟩
  | .hbm, ⟨63, _⟩ => ⟨S2000000, .i32⟩
  | .hbm, ⟨64, _⟩ => ⟨S2000000, .i32⟩
  | .hbm, ⟨65, _⟩ => ⟨S2000000, .i32⟩
  | .hbm, ⟨66, _⟩ => ⟨S2000000x1, .i32⟩
  | .hbm, ⟨67, _⟩ => ⟨S1, .i32⟩
  | .hbm, ⟨68, _⟩ => ⟨S_, .i32⟩
  | .hbm, ⟨69, _⟩ => ⟨S2000000x1, .i32⟩
  | .hbm, ⟨70, _⟩ => ⟨S2000000x1, .i1⟩
  | .hbm, ⟨71, _⟩ => ⟨S1x1, .i32⟩
  | .hbm, ⟨72, _⟩ => ⟨S2000000x1, .i32⟩
  | .hbm, ⟨73, _⟩ => ⟨S2000000x1, .i1⟩
  | .hbm, ⟨74, _⟩ => ⟨S2000000x1, .i1⟩
  | .hbm, ⟨75, _⟩ => ⟨S_, .i1⟩
  | .hbm, ⟨76, _⟩ => ⟨S2000000, .i1⟩
  | .hbm, ⟨77, _⟩ => ⟨S2000000x32, .f32⟩
  | .hbm, ⟨78, _⟩ => ⟨S2000000x32, .i1⟩
  | .hbm, ⟨79, _⟩ => ⟨S_, .f32⟩
  | .hbm, ⟨80, _⟩ => ⟨S2000000x32, .f32⟩
  | .hbm, ⟨81, _⟩ => ⟨S2000000x32, .f32⟩
  | .hbm, ⟨82, _⟩ => ⟨S2000000x32, .f32⟩
  | .hbm, ⟨83, _⟩ => ⟨S2000000x32, .f32⟩
  | .hbm, ⟨84, _⟩ => ⟨S_, .f32⟩
  | .hbm, ⟨85, _⟩ => ⟨S100000x32, .f32⟩
  | .hbm, ⟨86, _⟩ => ⟨S2000000x1, .i32⟩
  | .hbm, ⟨87, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S32x32, .f32⟩
  | .local _ .vmem, ⟨3, _⟩ => ⟨S32x32, .f32⟩
  | .local _ .vmem, ⟨4, _⟩ => ⟨S32x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S10000x128, .f32⟩
  | .local _ .vmem, ⟨15, _⟩ => ⟨S10000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v19 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_cst : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  transposes_S32x32_p1_0_S32x32 : S32x32.Transposes [1, 0] S32x32
  shapeCasts_S2000000x32_S500000x128 : S2000000x32.ShapeCasts S500000x128
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S32x32_S1x32x1x32_1_3 : S32x32.BroadcastsInDim S1x32x1x32 (![1, 3] : Fin 2 → Fin S1x32x1x32.rank)
  bcast_S4x1x4x1_S4x32x4x32_0_1_2_3 : S4x1x4x1.BroadcastsInDim S4x32x4x32 (![0, 1, 2, 3] : Fin 4 → Fin S4x32x4x32.rank)
  bcast_S1x32x1x32_S4x32x4x32_0_1_2_3 : S1x32x1x32.BroadcastsInDim S4x32x4x32 (![0, 1, 2, 3] : Fin 4 → Fin S4x32x4x32.rank)
  shapeCasts_S4x32x4x32_S128x128 : S4x32x4x32.ShapeCasts S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  shapeCasts_S500000x128_S2000000x32 : S500000x128.ShapeCasts S2000000x32
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x32_0 : S2000000.BroadcastsInDim S2000000x32 (![0] : Fin 1 → Fin S2000000x32.rank)
  bcast_S_S2000000x32 : S_.BroadcastsInDim S2000000x32 (![] : Fin 0 → Fin S2000000x32.rank)
  bcast_S_S100000x32 : S_.BroadcastsInDim S100000x32 (![] : Fin 0 → Fin S100000x32.rank)
  dot_S32x32_S32x32_S32x32_1_0_0_1_n_n_wf : DotDims.WF S32x32 S32x32 S32x32 [1] [0] [0] [1] [] []
  dot_S5000x32_S32x32_S5000x32_1_0_0_1_n_n_wf : DotDims.WF S5000x32 S32x32 S5000x32 [1] [0] [0] [1] [] []
  dot_S10000x128_S128x128_S10000x128_1_0_0_1_n_n_wf : DotDims.WF S10000x128 S128x128 S10000x128 [1] [0] [0] [1] [] []
  gather_S100000x32_S2000000x1_S2000000x32_1_0_n_n_0_1_132_wf : GatherDims.WF S100000x32 S2000000x1 S2000000x32 [1] [0] [] [0] [] 1 ![1, 32]
  scatter_S100000x32_S2000000x1_S2000000x32_1_0_0_1_wf : ScatterDims.WF S100000x32 S2000000x1 S2000000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S100000x32.size a
  hwx0_4 : ∀ i : grid0.Coords, EltTy.bits .f32 = 32 ∨ (Rect.block (s := S100000x32) S5000x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S500000x128.size a
  hwx1_0 : ∀ i : grid1.Coords, EltTy.bits .f32 = 32 ∨ (Rect.block (s := S500000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S500000x128.size a
  hwx1_2 : ∀ i : grid1.Coords, EltTy.bits .f32 = 32 ∨ (Rect.block (s := S500000x128) S10000x128.size (cc1_transform_2 i) (hinb1_2 i)).WholeWords (EltTy.packing .f32)

variable [Facts₀]

def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S5000x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S5000x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_2) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v9) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x2000000 : Shape := ⟨2, ![2, 2000000]⟩
abbrev S2000000x32 : Shape := ⟨2, ![2000000, 32]⟩
abbrev S32x32 : Shape := ⟨2, ![32, 32]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩

abbrev nBuf : Space → Nat
  | .hbm => 49
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x2000000, .i32⟩
  | .hbm, ⟨2, _⟩ => ⟨S2000000x32, .f32⟩
  | .hbm, ⟨3, _⟩ => ⟨S32x32, .f32⟩
  | .hbm, ⟨4, _⟩ => ⟨S32x32, .f32⟩
  | .hbm, ⟨5, _⟩ => ⟨S32x32, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S1x2000000, .i32⟩
  | .hbm, ⟨10, _⟩ => ⟨S2000000, .i32⟩
  | .hbm, ⟨11, _⟩ => ⟨S1x2000000, .i32⟩
  | .hbm, ⟨12, _⟩ => ⟨S2000000, .i32⟩
  | .hbm, ⟨13, _⟩ => ⟨S32x32, .f32⟩
  | .hbm, ⟨14, _⟩ => ⟨S100000x32, .f32⟩
  | .hbm, ⟨15, _⟩ => ⟨S32x32, .f32⟩
  | .hbm, ⟨16, _⟩ => ⟨S2000000x32, .f32⟩
  | .hbm, ⟨17, _⟩ => ⟨S32x32, .f32⟩
  | .hbm, ⟨18, _⟩ => ⟨S100000x32, .f32⟩
  | .hbm, ⟨19, _⟩ => ⟨S_, .i32⟩
  | .hbm, ⟨20, _⟩ => ⟨S2000000, .i32⟩
  | .hbm, ⟨21, _⟩ => ⟨S2000000, .i1⟩
  | .hbm, ⟨22, _⟩ => ⟨S_, .i32⟩
  | .hbm, ⟨23, _⟩ => ⟨S2000000, .i32⟩
  | .hbm, ⟨24, _⟩ => ⟨S2000000, .i32⟩
  | .hbm, ⟨25, _⟩ => ⟨S2000000, .i32⟩
  | .hbm, ⟨26, _⟩ => ⟨S2000000x1, .i32⟩
  | .hbm, ⟨27, _⟩ => ⟨S2000000x32, .f32⟩
  | .hbm, ⟨28, _⟩ => ⟨S2000000x32, .f32⟩
  | .hbm, ⟨29, _⟩ => ⟨S_, .i32⟩
  | .hbm, ⟨30, _⟩ => ⟨S2000000, .i32⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i32⟩
  | .hbm, ⟨35, _⟩ => ⟨S2000000, .i32⟩
  | .hbm, ⟨36, _⟩ => ⟨S2000000x1, .i32⟩
  | .hbm, ⟨37, _⟩ => ⟨S2000000x32, .f32⟩
  | .hbm, ⟨38, _⟩ => ⟨S2000000x32, .f32⟩
  | .hbm, ⟨39, _⟩ => ⟨S32x32, .f32⟩
  | .hbm, ⟨40, _⟩ => ⟨S2000000x32, .f32⟩
  | .hbm, ⟨41, _⟩ => ⟨S32x32, .f32⟩
  | .hbm, ⟨42, _⟩ => ⟨S100000x32, .f32⟩
  | .hbm, ⟨43, _⟩ => ⟨S_, .f32⟩
  | .hbm, ⟨44, _⟩ => ⟨S100000x32, .f32⟩
  | .hbm, ⟨45, _⟩ => ⟨S2000000x1, .i32⟩
  | .hbm, ⟨46, _⟩ => ⟨S100000x32, .f32⟩
  | .hbm, ⟨47, _⟩ => ⟨S32x32, .f32⟩
  | .hbm, ⟨48, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  transposes_S32x32_S32x32_1_0 : S32x32.Transposes [1, 0] S32x32
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x32 : S_.BroadcastsInDim S100000x32 (![] : Fin 0 → Fin S100000x32.rank)
  dot_S100000x32_S32x32_S100000x32_1_0_0_1_n_n_wf : DotDims.WF S100000x32 S32x32 S100000x32 [1] [0] [0] [1] [] []
  dot_S2000000x32_S32x32_S2000000x32_1_0_0_1_n_n_wf : DotDims.WF S2000000x32 S32x32 S2000000x32 [1] [0] [0] [1] [] []
  gather_S100000x32_S2000000x1_S2000000x32_1_0_n_n_0_1_132_wf : GatherDims.WF S100000x32 S2000000x1 S2000000x32 [1] [0] [] [0] [] 1 ![1, 32]
  scatter_S100000x32_S2000000x1_S2000000x32_1_0_0_1_wf : ScatterDims.WF S100000x32 S2000000x1 S2000000x32 [1] [0] [0] 1

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S2000000x32_S32x32_S2000000x32_1_0_0_1_n_n : DotDims S2000000x32 S32x32 S2000000x32 where
  lhsContracting := [1]
  rhsContracting := [0]
  lhsNonContracting := [0]
  rhsNonContracting := [1]
  lhsBatch := []
  rhsBatch := []
  wf := dot_S2000000x32_S32x32_S2000000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf

class Facts : Prop extends Facts₀ where

variable [Facts]
-- ==== Proof.KDefs.lean ====
/-
  Two host-side sub-computations of the kernel's program, named once so that they are carried whole.

  `kronEye E` is `kron(eye(4), E)` as a 128 × 128 matrix: four copies of the 32 × 32 matrix `E` down the diagonal, zeros
  elsewhere (entry `(32·a + p, 32·b + l)` is `[a = b] · E[p, l]`). `take T iv` is `jnp.take(T, iv, axis = 0)` in its default
  mode: a negative row number counts from the end, and a row number still outside `[0, 99999]` gives a row of the NaN pattern.
-/
import proofs.«427212_j49555332662129_3_alg».proof.Proof.Gen.KernelIdeal

noncomputable section

namespace Cert.KernelIdeal.KDefs

open Idealize.ShloMosaic Cert.KernelIdeal Cert.KernelIdeal.Gen

variable {F : FTy → Type} [FloatOps F]

/-- `kron(eye(4), E)`: the 4 × 4 identity (a comparison of two iotas, converted to floats) and `E` broadcast to
    `[4, 32, 4, 32]`, multiplied, and re-laid as `[128, 128]`. -/
def kronEye (E : FVec F S32x32 .f32) : FVec F S128x128 .f32 :=
  shapeCast S128x128
    (mulf
      (broadcastInDim S4x32x4x32 ![0, 1, 2, 3] bcast_S4x1x4x1_S4x32x4x32_0_1_2_3
        (broadcastInDim S4x1x4x1 ![0, 2] bcast_S4x4_S4x1x4x1_0_2
          (uitofp .f32
            (cmpi .eq (addi (iotaInDim S4x4 32 0) (broadcastInDim S4x4 ![] bcast_S_S4x4 (constantI S_ 32 0#32)))
              (iotaInDim S4x4 32 1)))))
      (broadcastInDim S4x32x4x32 ![0, 1, 2, 3] bcast_S1x32x1x32_S4x32x4x32_0_1_2_3
        (broadcastInDim S1x32x1x32 ![1, 3] bcast_S32x32_S1x32x1x32_1_3 E)))
    shapeCasts_S4x32x4x32_S128x128

/-- The row numbers as `take` uses them: a negative one has the table's height added; as a column `[2000000, 1]`. -/
def takeIdx (iv : IVec S2000000 32) : IVec S2000000x1 32 :=
  broadcastInDim S2000000x1 ![0] bcast_S2000000_S2000000x1_0
    (select (cmpi .slt iv (broadcastInDim S2000000 ![] bcast_S_S2000000 (constantI S_ 32 0#32)))
      (addi iv (broadcastInDim S2000000 ![] bcast_S_S2000000 (constantI S_ 32 100000#32))) iv)

/-- `jnp.take(T, iv, axis = 0)`: the gathered rows where the row number is in `[0, 99999]`, the NaN pattern elsewhere. -/
def take (T : FVec F S100000x32 .f32) (iv : IVec S2000000 32) : FVec F S2000000x32 .f32 :=
  select
    (broadcastInDim S2000000x32 ![0] bcast_S2000000_S2000000x32_0
      (Host.reduce IntOp.andi
        (andi (cmpi .sge (takeIdx iv) (broadcastInDim S2000000x1 ![] bcast_S_S2000000x1 (constantI S_ 32 0#32)))
          (cmpi .sle (takeIdx iv)
            (broadcastInDim S2000000x1 ![0, 1] bcast_S1x1_S2000000x1_0_1
              (broadcastInDim S1x1 ![1] bcast_S1_S1x1_1 (constantI S1 32 99999#32)))))
        (constantI S_ 1 1#1) reducesTo_S2000000x1_S2000000_d1 h_S_))
    (Host.gather gather_S100000x32_S2000000x1_S2000000x32_1_0_n_n_0_1_132 T (takeIdx iv))
    (broadcastInDim S2000000x32 ![] bcast_S_S2000000x32 (constant S_ .f32 0x7FC00000#32))

end Cert.KernelIdeal.KDefs

end
-- ==== Proof.KStretch.lean ====
/-
  The kernel program's host stretches, one at a time, over ANY contents they start from.

  Each lemma says what one stretch of @main leaves in one buffer, as a term of the stretch's entry contents `W`: the two
  composed weights' products, the endpoint rows, the re-laid edge features, the identity mask and the Kronecker product,
  the two `take`s, and the final scatter-add.
-/
import proofs.«427212_j49555332662129_3_alg».proof.Proof.Gen.KernelIdeal.Launch
import proofs.«427212_j49555332662129_3_alg».proof.Proof.KDefs
import Idealize.ShloMosaic.Lib.StableHlo.Run

set_option maxRecDepth 16384

noncomputable section

namespace Cert.KernelIdeal.KStretch

open Idealize.ShloMosaic Idealize.ShloMosaic.TcCoe Idealize.SL.Sem Idealize.ShloMosaic.StableHlo
open Cert.KernelIdeal Cert.KernelIdeal.Gen Cert.KernelIdeal.KDefs

variable {F : FTy → Type} [FloatOps F]

/-- The composite `(W₈ · W₆) · M` as the program computes it: two host products. -/
def comp (W8 W6 M : FVec F S32x32 .f32) : FVec F S32x32 .f32 :=
  Host.dotGeneral dot_S32x32_S32x32_S32x32_1_0_0_1_n_n none (Host.dotGeneral dot_S32x32_S32x32_S32x32_1_0_0_1_n_n none W8 W6) M

/-- Row `s` of the endpoint array as a vector of 2000000 row numbers. -/
def endRow0 (EI : IVec S2x2000000 32) : IVec S2000000 32 :=
  shapeCast _ (extractStridedSlice S1x2000000 ![0, 0] EI slices_S2x2000000_S1x2000000_0_0) shapeCasts_S1x2000000_S2000000
def endRow1 (EI : IVec S2x2000000 32) : IVec S2000000 32 :=
  shapeCast _ (extractStridedSlice S1x2000000 ![1, 0] EI slices_S2x2000000_S1x2000000_1_0) shapeCasts_S1x2000000_S2000000

/-- The 4 × 4 identity as floats: two iotas compared. -/
def eye4 : FVec F S4x4 .f32 :=
  uitofp .f32
    (cmpi .eq (addi (iotaInDim S4x4 32 0) (broadcastInDim S4x4 ![] bcast_S_S4x4 (constantI S_ 32 0#32))) (iotaInDim S4x4 32 1))

/-- Contents carried into a buffer's own type and back are the contents. -/
theorem ofBuf_toBuf {Val : EltTy → Type} {T : BufTy} (x : TRef sig T) (v : T.Contents Val) : x.ofBuf (x.toBuf v) = v := by
  obtain ⟨r, h, h2, h3⟩ := x
  subst h
  rfl

/-! ## The first stretch: the endpoint rows and the composed weights -/

theorem s0_v1 (W : Valuation τ sig (Elt F)) :
    StableHlo.after hostOps0 W (Proc.devRef .tc main_v1) = endRow0 (W (Proc.devRef .tc main_arg1)) := by
  after_results_simp <;> rfl
theorem s0_v3 (W : Valuation τ sig (Elt F)) :
    StableHlo.after hostOps0 W (Proc.devRef .tc main_v3) = endRow1 (W (Proc.devRef .tc main_arg1)) := by
  after_results_simp <;> rfl
theorem s0_v5 (W : Valuation τ sig (Elt F)) :
    StableHlo.after hostOps0 W (Proc.devRef .tc main_v5)
      = comp (W (Proc.devRef .tc main_arg8)) (W (Proc.devRef .tc main_arg6)) (W (Proc.devRef .tc main_arg3)) := by
  after_results_simp <;> rfl
theorem s0_v6 (W : Valuation τ sig (Elt F)) :
    StableHlo.after hostOps0 W (Proc.devRef .tc main_v6)
      = comp (W (Proc.devRef .tc main_arg8)) (W (Proc.devRef .tc main_arg6)) (W (Proc.devRef .tc main_arg4)) := by
  after_results_simp <;> rfl
theorem s0_v7 (W : Valuation τ sig (Elt F)) :
    StableHlo.after hostOps0 W (Proc.devRef .tc main_v7)
      = comp (W (Proc.devRef .tc main_arg8)) (W (Proc.devRef .tc main_arg6)) (W (Proc.devRef .tc main_arg5)) := by
  after_results_simp <;> rfl

/-! ## The stretch before the edge kernel: the re-laid edge features, the identity, the Kronecker product -/

theorem s1_v9 (W : Valuation τ sig (Elt F)) :
    StableHlo.after hostOps1 W (Proc.devRef .tc main_v9)
      = shapeCast S500000x128 (W (Proc.devRef .tc main_arg2)) shapeCasts_S2000000x32_S500000x128 := by
  after_results_simp <;> rfl
theorem s1_v15 (W : Valuation τ sig (Elt F)) :
    StableHlo.after hostOps1 W (Proc.devRef .tc main_v15) = eye4 := by
  after_results_simp <;> rfl

set_option maxHeartbeats 1000000 in
theorem s11_v16 (W : Valuation τ sig (Elt F)) (h : W (Proc.devRef .tc main_v15) = eye4) :
    StableHlo.after hostOps1_1 W (Proc.devRef .tc main_v16) = kronEye (W (Proc.devRef .tc main_v6)) := by
  after_results_simp
  rw [h]
  rfl

/-! ## After the edge kernel: the edge projection re-laid, the two takes, the sum and the scatter-add -/

theorem s2_v18 (W : Valuation τ sig (Elt F)) :
    StableHlo.after hostOps2 W (Proc.devRef .tc main_v18)
      = shapeCast S2000000x32 (W (Proc.devRef .tc main_v17)) shapeCasts_S500000x128_S2000000x32 := by
  after_results_simp <;> rfl

set_option maxHeartbeats 4000000 in
theorem s21_v19 (W : Valuation τ sig (Elt F)) :
    StableHlo.after hostOps2_1 W (Proc.devRef .tc main_v19)
      = take (W (Proc.devRef .tc main_v8_0)) (W (Proc.devRef .tc main_v1)) := by
  after_results_simp
  simp only [ofBuf_toBuf]
  simp only [TRef.toBuf]
  rw [cast_eq_iff_heq]
  exact HEq.rfl

set_option maxHeartbeats 4000000 in
theorem s22_v20 (W : Valuation τ sig (Elt F)) :
    StableHlo.after hostOps2_2 W (Proc.devRef .tc main_v20)
      = take (W (Proc.devRef .tc main_v8_1)) (W (Proc.devRef .tc main_v3)) := by
  after_results_simp
  simp only [ofBuf_toBuf]
  simp only [TRef.toBuf]
  rw [cast_eq_iff_heq]
  exact HEq.rfl

set_option maxHeartbeats 2000000 in
theorem s23_v25 (W : Valuation τ sig (Elt F)) :
    StableHlo.after hostOps2_3 W (Proc.devRef .tc main_v25)
      = Host.scatterAdd scatter_S100000x32_S2000000x1_S2000000x32_1_0_0_1
          (broadcastInDim S100000x32 ![] bcast_S_S100000x32 (constant S_ .f32 0x00000000#32))
          (broadcastInDim S2000000x1 ![0] bcast_S2000000_S2000000x1_0 (W (Proc.devRef .tc main_v3)))
          (addf (addf (W (Proc.devRef .tc main_v19)) (W (Proc.devRef .tc main_v18))) (W (Proc.devRef .tc main_v20))) := by
  after_results_simp <;> rfl

end Cert.KernelIdeal.KStretch

end
-- ==== Proof.KFold.lean ====
/-
  The kernel program's two results, read back through its stretches and its two pallas_calls to the argument arrays.

  The contents at each boundary of @main are a fold over the launch memory (the generated frame's `W0` … `W9`). A buffer a
  stretch does not write keeps its contents; a buffer it writes holds the stretch's term of the entry contents; a pallas_call's
  output array holds what its pipeline leaves (`Dat.arrAt … N`). Walking each buffer back gives the first result as the node
  kernel's third output array and the second as the scatter-add, by receiver, of the taken source rows of its first output,
  plus the re-laid edge kernel's output, plus the taken receiver rows of its second output.
-/
import proofs.«427212_j49555332662129_3_alg».proof.Proof.Gen.KernelIdeal.Frame
import proofs.«427212_j49555332662129_3_alg».proof.Proof.KStretch
import Idealize.ShloMosaic.PureOps.Ideal

set_option maxRecDepth 16384

noncomputable section

namespace Cert.KernelIdeal.KFold

open Idealize.ShloMosaic Idealize.ShloMosaic.TcCoe Idealize.SL.Sem Idealize.ShloMosaic.StableHlo
open Cert.KernelIdeal Cert.KernelIdeal.Gen Cert.KernelIdeal.KDefs Cert.KernelIdeal.KStretch

variable (m : (ℓ : Loc nD τ sig) → Buf (Elt Ideal) ℓ) (ρ : Dev nD → PrngReg)

/-- A buffer that no operation of a stretch writes keeps its contents: each operation's result buffer is another reference. -/
macro "keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The same fact in the form "no operation of the stretch writes the buffer". -/
macro "keepsH " ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The node kernel's entry contents -/

theorem V1_arg0 (c : Dev nD) : V1 m ρ c main_arg0 = m ((c : Thread nD τ).loc main_arg0) :=
  calc W1 m ρ c (Proc.devRef .tc main_arg0)
    _ = W0 m ρ c (Proc.devRef .tc main_arg0) := (by keeps hostOps0)
    _ = m ((c : Thread nD τ).loc main_arg0) := rfl
theorem V1_arg7 (c : Dev nD) : V1 m ρ c main_arg7 = m ((c : Thread nD τ).loc main_arg7) :=
  calc W1 m ρ c (Proc.devRef .tc main_arg7)
    _ = W0 m ρ c (Proc.devRef .tc main_arg7) := (by keeps hostOps0)
    _ = m ((c : Thread nD τ).loc main_arg7) := rfl
theorem V1_v5 (c : Dev nD) : V1 m ρ c main_v5
    = comp (F := Ideal) (m ((c : Thread nD τ).loc main_arg8)) (m ((c : Thread nD τ).loc main_arg6)) (m ((c : Thread nD τ).loc main_arg3)) :=
  s0_v5 (W0 m ρ c)
theorem V1_v7 (c : Dev nD) : V1 m ρ c main_v7
    = comp (F := Ideal) (m ((c : Thread nD τ).loc main_arg8)) (m ((c : Thread nD τ).loc main_arg6)) (m ((c : Thread nD τ).loc main_arg5)) :=
  s0_v7 (W0 m ρ c)
theorem W1_v6 (c : Dev nD) : W1 m ρ c (Proc.devRef .tc main_v6)
    = comp (F := Ideal) (m ((c : Thread nD τ).loc main_arg8)) (m ((c : Thread nD τ).loc main_arg6)) (m ((c : Thread nD τ).loc main_arg4)) :=
  s0_v6 (W0 m ρ c)
theorem W1_v1 (c : Dev nD) : W1 m ρ c (Proc.devRef .tc main_v1) = endRow0 (m ((c : Thread nD τ).loc main_arg1)) :=
  s0_v1 (W0 m ρ c)
theorem W1_v3 (c : Dev nD) : W1 m ρ c (Proc.devRef .tc main_v3) = endRow1 (m ((c : Thread nD τ).loc main_arg1)) :=
  s0_v3 (W0 m ρ c)
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := (by keeps hostOps0)
    _ = m ((c : Thread nD τ).loc main_arg2) := rfl

/-! ## The node kernel's three output arrays: what the pipeline leaves -/

theorem W2_v8_0 (c : Dev nD) : W2 m ρ c (Proc.devRef .tc main_v8_0) = (dat0 (V1 m ρ) c).arrAt 4 cfg0.N := W2_arr m ρ c 4
theorem W2_v8_1 (c : Dev nD) : W2 m ρ c (Proc.devRef .tc main_v8_1) = (dat0 (V1 m ρ) c).arrAt 5 cfg0.N := W2_arr m ρ c 5
theorem W2_v8_2 (c : Dev nD) : W2 m ρ c (Proc.devRef .tc main_v8_2) = (dat0 (V1 m ρ) c).arrAt 6 cfg0.N := W2_arr m ρ c 6

/-! ## The edge kernel's entry contents and its output -/

theorem V4_v9 (c : Dev nD) : V4 m ρ c main_v9
    = shapeCast S500000x128 (m ((c : Thread nD τ).loc main_arg2)) shapeCasts_S2000000x32_S500000x128 :=
  calc W4 m ρ c (Proc.devRef .tc main_v9)
    _ = W3 m ρ c (Proc.devRef .tc main_v9) := (by keeps hostOps1_1)
    _ = shapeCast S500000x128 (W2 m ρ c (Proc.devRef .tc main_arg2)) shapeCasts_S2000000x32_S500000x128 := s1_v9 (W2 m ρ c)
    _ = shapeCast S500000x128 (W1 m ρ c (Proc.devRef .tc main_arg2)) shapeCasts_S2000000x32_S500000x128 := by
          rw [W2_of_ne m ρ c main_arg2 (by decide)]
    _ = _ := by rw [W1_arg2 m ρ c]

theorem W3_v6 (c : Dev nD) : W3 m ρ c (Proc.devRef .tc main_v6)
    = comp (F := Ideal) (m ((c : Thread nD τ).loc main_arg8)) (m ((c : Thread nD τ).loc main_arg6)) (m ((c : Thread nD τ).loc main_arg4)) :=
  calc W3 m ρ c (Proc.devRef .tc main_v6)
    _ = W2 m ρ c (Proc.devRef .tc main_v6) := (by keeps hostOps1)
    _ = W1 m ρ c (Proc.devRef .tc main_v6) := W2_of_ne m ρ c main_v6 (by decide)
    _ = _ := W1_v6 m ρ c

theorem V4_v16 (c : Dev nD) : V4 m ρ c main_v16
    = kronEye (F := Ideal) (comp (F := Ideal) (m ((c : Thread nD τ).loc main_arg8)) (m ((c : Thread nD τ).loc main_arg6)) (m ((c : Thread nD τ).loc main_arg4))) := by
  rw [← W3_v6 m ρ c]
  exact s11_v16 (W3 m ρ c) (s1_v15 (W2 m ρ c))

/-- The edge kernel's output array: what the pipeline leaves. -/
theorem W5_v17 (c : Dev nD) : W5 m ρ c (Proc.devRef .tc main_v17) = (dat1 (V4 m ρ) c).arrAt 2 cfg1.N := W5_arr m ρ c 2

/-! ## Buffers carried unchanged from the node kernel's exit to where they are read -/

/-- From the node kernel's exit to the edge kernel's exit, a buffer that neither stretch writes and that is no array of the
    edge kernel keeps its contents. -/
theorem W5_of_W2 (c : Dev nD) (b : Ref sig .tc)
    (h1 : ∀ op ∈ (hostOps1 : List (HloOp τ sig (Elt Ideal))), (Proc.devRef .tc b) ∉ op.writes)
    (h11 : ∀ op ∈ (hostOps1_1 : List (HloOp τ sig (Elt Ideal))), (Proc.devRef .tc b) ∉ op.writes)
    (hb : ∀ w, Pipeline.arrRef spec1 w ≠ b) :
    W5 m ρ c (Proc.devRef .tc b) = W2 m ρ c (Proc.devRef .tc b) :=
  calc W5 m ρ c (Proc.devRef .tc b)
    _ = W4 m ρ c (Proc.devRef .tc b) := W5_of_ne m ρ c b hb
    _ = W3 m ρ c (Proc.devRef .tc b) := StableHlo.after_of_forall_not_mem _ _ h11
    _ = W2 m ρ c (Proc.devRef .tc b) := StableHlo.after_of_forall_not_mem _ _ h1

theorem W5_v8_0 (c : Dev nD) : W5 m ρ c (Proc.devRef .tc main_v8_0) = (dat0 (V1 m ρ) c).arrAt 4 cfg0.N :=
  (W5_of_W2 m ρ c main_v8_0 (by keepsH hostOps1) (by keepsH hostOps1_1) (by decide)).trans (W2_v8_0 m ρ c)
theorem W5_v8_1 (c : Dev nD) : W5 m ρ c (Proc.devRef .tc main_v8_1) = (dat0 (V1 m ρ) c).arrAt 5 cfg0.N :=
  (W5_of_W2 m ρ c main_v8_1 (by keepsH hostOps1) (by keepsH hostOps1_1) (by decide)).trans (W2_v8_1 m ρ c)
theorem W5_v8_2 (c : Dev nD) : W5 m ρ c (Proc.devRef .tc main_v8_2) = (dat0 (V1 m ρ) c).arrAt 6 cfg0.N :=
  (W5_of_W2 m ρ c main_v8_2 (by keepsH hostOps1) (by keepsH hostOps1_1) (by decide)).trans (W2_v8_2 m ρ c)
theorem W5_v1 (c : Dev nD) : W5 m ρ c (Proc.devRef .tc main_v1) = endRow0 (m ((c : Thread nD τ).loc main_arg1)) :=
  (W5_of_W2 m ρ c main_v1 (by keepsH hostOps1) (by keepsH hostOps1_1) (by decide)).trans
    ((W2_of_ne m ρ c main_v1 (by decide)).trans (W1_v1 m ρ c))
theorem W5_v3 (c : Dev nD) : W5 m ρ c (Proc.devRef .tc main_v3) = endRow1 (m ((c : Thread nD τ).loc main_arg1)) :=
  (W5_of_W2 m ρ c main_v3 (by keepsH hostOps1) (by keepsH hostOps1_1) (by decide)).trans
    ((W2_of_ne m ρ c main_v3 (by decide)).trans (W1_v3 m ρ c))

/-! ## The stretches after the edge kernel -/

theorem W6_v18 (c : Dev nD) : W6 m ρ c (Proc.devRef .tc main_v18)
    = shapeCast S2000000x32 ((dat1 (V4 m ρ) c).arrAt 2 cfg1.N) shapeCasts_S500000x128_S2000000x32 := by
  rw [← W5_v17 m ρ c]
  exact s2_v18 (W5 m ρ c)
theorem W6_v8_0 (c : Dev nD) : W6 m ρ c (Proc.devRef .tc main_v8_0) = (dat0 (V1 m ρ) c).arrAt 4 cfg0.N :=
  calc W6 m ρ c (Proc.devRef .tc main_v8_0)
    _ = W5 m ρ c (Proc.devRef .tc main_v8_0) := (by keeps hostOps2)
    _ = _ := W5_v8_0 m ρ c
theorem W6_v1 (c : Dev nD) : W6 m ρ c (Proc.devRef .tc main_v1) = endRow0 (m ((c : Thread nD τ).loc main_arg1)) :=
  calc W6 m ρ c (Proc.devRef .tc main_v1)
    _ = W5 m ρ c (Proc.devRef .tc main_v1) := (by keeps hostOps2)
    _ = _ := W5_v1 m ρ c
/-- The source rows taken from the node kernel's first output. -/
theorem W7_v19 (c : Dev nD) : W7 m ρ c (Proc.devRef .tc main_v19)
    = take (F := Ideal) ((dat0 (V1 m ρ) c).arrAt 4 cfg0.N) (endRow0 (m ((c : Thread nD τ).loc main_arg1))) := by
  rw [← W6_v8_0 m ρ c, ← W6_v1 m ρ c]
  exact s21_v19 (W6 m ρ c)
theorem W7_v8_1 (c : Dev nD) : W7 m ρ c (Proc.devRef .tc main_v8_1) = (dat0 (V1 m ρ) c).arrAt 5 cfg0.N :=
  calc W7 m ρ c (Proc.devRef .tc main_v8_1)
    _ = W6 m ρ c (Proc.devRef .tc main_v8_1) := (by keeps hostOps2_1)
    _ = W5 m ρ c (Proc.devRef .tc main_v8_1) := (by keeps hostOps2)
    _ = _ := W5_v8_1 m ρ c
theorem W7_v3 (c : Dev nD) : W7 m ρ c (Proc.devRef .tc main_v3) = endRow1 (m ((c : Thread nD τ).loc main_arg1)) :=
  calc W7 m ρ c (Proc.devRef .tc main_v3)
    _ = W6 m ρ c (Proc.devRef .tc main_v3) := (by keeps hostOps2_1)
    _ = W5 m ρ c (Proc.devRef .tc main_v3) := (by keeps hostOps2)
    _ = _ := W5_v3 m ρ c
theorem W7_v18 (c : Dev nD) : W7 m ρ c (Proc.devRef .tc main_v18)
    = shapeCast S2000000x32 ((dat1 (V4 m ρ) c).arrAt 2 cfg1.N) shapeCasts_S500000x128_S2000000x32 :=
  calc W7 m ρ c (Proc.devRef .tc main_v18)
    _ = W6 m ρ c (Proc.devRef .tc main_v18) := (by keeps hostOps2_1)
    _ = _ := W6_v18 m ρ c
/-- The receiver rows taken from the node kernel's second output. -/
theorem W8_v20 (c : Dev nD) : W8 m ρ c (Proc.devRef .tc main_v20)
    = take (F := Ideal) ((dat0 (V1 m ρ) c).arrAt 5 cfg0.N) (endRow1 (m ((c : Thread nD τ).loc main_arg1))) := by
  rw [← W7_v8_1 m ρ c, ← W7_v3 m ρ c]
  exact s22_v20 (W7 m ρ c)
theorem W8_v19 (c : Dev nD) : W8 m ρ c (Proc.devRef .tc main_v19)
    = take (F := Ideal) ((dat0 (V1 m ρ) c).arrAt 4 cfg0.N) (endRow0 (m ((c : Thread nD τ).loc main_arg1))) :=
  calc W8 m ρ c (Proc.devRef .tc main_v19)
    _ = W7 m ρ c (Proc.devRef .tc main_v19) := (by keeps hostOps2_2)
    _ = _ := W7_v19 m ρ c
theorem W8_v18 (c : Dev nD) : W8 m ρ c (Proc.devRef .tc main_v18)
    = shapeCast S2000000x32 ((dat1 (V4 m ρ) c).arrAt 2 cfg1.N) shapeCasts_S500000x128_S2000000x32 :=
  calc W8 m ρ c (Proc.devRef .tc main_v18)
    _ = W7 m ρ c (Proc.devRef .tc main_v18) := (by keeps hostOps2_2)
    _ = _ := W7_v18 m ρ c
theorem W8_v3 (c : Dev nD) : W8 m ρ c (Proc.devRef .tc main_v3) = endRow1 (m ((c : Thread nD τ).loc main_arg1)) :=
  calc W8 m ρ c (Proc.devRef .tc main_v3)
    _ = W7 m ρ c (Proc.devRef .tc main_v3) := (by keeps hostOps2_2)
    _ = _ := W7_v3 m ρ c

/-! ## The two results -/

/-- The first result is the node kernel's third output array, carried to the end. -/
theorem W9_v8_2 (c : Dev nD) : W9 m ρ c (Proc.devRef .tc main_v8_2) = (dat0 (V1 m ρ) c).arrAt 6 cfg0.N :=
  calc W9 m ρ c (Proc.devRef .tc main_v8_2)
    _ = W8 m ρ c (Proc.devRef .tc main_v8_2) := (by keeps hostOps2_3)
    _ = W7 m ρ c (Proc.devRef .tc main_v8_2) := (by keeps hostOps2_2)
    _ = W6 m ρ c (Proc.devRef .tc main_v8_2) := (by keeps hostOps2_1)
    _ = W5 m ρ c (Proc.devRef .tc main_v8_2) := (by keeps hostOps2)
    _ = _ := W5_v8_2 m ρ c

/-- The second result: the scatter-add into zeros, by the receiver row, of the taken source rows plus the re-laid edge
    projection plus the taken receiver rows. -/
theorem W9_v25 (c : Dev nD) : W9 m ρ c (Proc.devRef .tc main_v25)
    = Host.scatterAdd (F := Ideal) scatter_S100000x32_S2000000x1_S2000000x32_1_0_0_1
        (broadcastInDim S100000x32 ![] bcast_S_S100000x32 (constant (F := Ideal) S_ .f32 0x00000000#32))
        (broadcastInDim S2000000x1 ![0] bcast_S2000000_S2000000x1_0 (endRow1 (m ((c : Thread nD τ).loc main_arg1))))
        (addf
          (addf (take (F := Ideal) ((dat0 (V1 m ρ) c).arrAt 4 cfg0.N) (endRow0 (m ((c : Thread nD τ).loc main_arg1))))
            (shapeCast S2000000x32 ((dat1 (V4 m ρ) c).arrAt 2 cfg1.N) shapeCasts_S500000x128_S2000000x32))
          (take (F := Ideal) ((dat0 (V1 m ρ) c).arrAt 5 cfg0.N) (endRow1 (m ((c : Thread nD τ).loc main_arg1))))) := by
  rw [← W8_v20 m ρ c, ← W8_v19 m ρ c, ← W8_v18 m ρ c, ← W8_v3 m ρ c]
  exact s23_v25 (W8 m ρ c)

end Cert.KernelIdeal.KFold

end
-- ==== Proof.Spec.lean ====
/-
  The message-passing layer as index-by-index functions of its argument arrays, over the extended reals.

  Nodes carry 32 features (`X : [100000, 32]`), edges carry 32 features (`EA : [2000000, 32]`) and a pair of node numbers
  (`EI : [2, 2000000]`: row 0 the source `u`, row 1 the receiver `v`). Every linear map is a 32 × 32 matrix applied on the right
  as `A · Wᵀ`. The layer sums, over the edges `e` received by node `n`, the edge message
  `((X[u e] · W₃ᵀ + EA[e] · W₄ᵀ + X[v e] · W₅ᵀ) · W₆ᵀ) · W₈ᵀ`.
  `refAgg` applies `W₆ᵀ` per edge, sums, and applies `W₈ᵀ` per node; `kernelAgg` folds the two maps into the three
  first-layer matrices (`(W₈ · W₆) · W₃` and so on) and sums. The two agree where the entries are real numbers (linearity).
-/
import Idealize.ShloMosaic.Lib.ValueIdx
import Idealize.ShloMosaic.PureOps.Ideal

noncomputable section

namespace Cert.MsgPass

open Idealize.ShloMosaic Idealize.ShloMosaic.ValueIdx

/-- Node features and per-node results. -/
abbrev SN : Shape := ⟨2, ![100000, 32]⟩
/-- Edge features and per-edge messages. -/
abbrev SE : Shape := ⟨2, ![2000000, 32]⟩
/-- A linear map's matrix. -/
abbrev SW : Shape := ⟨2, ![32, 32]⟩
/-- The edges' endpoints: row 0 the sources, row 1 the receivers. -/
abbrev SI : Shape := ⟨2, ![2, 2000000]⟩

/-- `(A · Bᵀ)[i, j] = ∑ k, A[i, k] · B[j, k]`: a linear map `B` applied to every row of `A`. -/
def mulT {a b c : Nat} (A : (⟨2, ![a, b]⟩ : Shape).Idx → EReal) (B : (⟨2, ![c, b]⟩ : Shape).Idx → EReal) :
    (⟨2, ![a, c]⟩ : Shape).Idx → EReal :=
  fun i => ∑ k : Fin b, A (ix2 (i 0 : Fin a) k) * B (ix2 (i 1 : Fin c) k)

/-- `(A · B)[i, j] = ∑ k, A[i, k] · B[k, j]`: the composite of two linear maps. -/
def mulN (A B : SW.Idx → EReal) : SW.Idx → EReal :=
  fun i => ∑ k : Fin 32, A (ix2 (i 0 : Fin 32) k) * B (ix2 k (i 1 : Fin 32))

/-- Every endpoint is a node number: `0 ≤ EI[s, e] < 100000` read as a signed integer. -/
def InRange (EI : IVec SI 32) : Prop := ∀ i : SI.Idx, 0 ≤ (EI i).toInt ∧ (EI i).toInt < 100000

/-- Every entry is a real number (not an infinity). -/
def IsReal {s : Shape} (A : s.Idx → EReal) : Prop := ∀ i : s.Idx, ∃ r : ℝ, A i = (r : EReal)

/-- The node whose row edge `e` reads as its endpoint `s` (0 the source, 1 the receiver): the endpoint read as a signed
    integer and clamped into the table. -/
def row (EI : IVec SI 32) (s : Fin 2) (e : Fin 2000000) : Fin 100000 :=
  ⟨min (EI (ix2 s e)).toInt.toNat 99999, by omega⟩

/-- The edges received by node `n`: those whose receiver, read as a signed integer, is `n`. -/
def rows (EI : IVec SI 32) (n : Fin 100000) : Finset (Fin 2000000) :=
  Finset.univ.filter fun e => (EI (ix2 (1 : Fin 2) e)).toInt = (n.val : Int)

/-- The folded form: per edge the three first-layer maps already composed with `W₈ · W₆`, summed over a node's received edges. -/
def kernelAgg (X : SN.Idx → EReal) (EI : IVec SI 32) (EA : SE.Idx → EReal) (W3 W4 W5 W6 W8 : SW.Idx → EReal) : SN.Idx → EReal :=
  fun i => ∑ e ∈ rows EI (i 0 : Fin 100000),
    ((mulT X (mulN (mulN W8 W6) W3) (ix2 (row EI 0 e) (i 1 : Fin 32))
      + mulT EA (mulN (mulN W8 W6) W4) (ix2 e (i 1 : Fin 32)))
      + mulT X (mulN (mulN W8 W6) W5) (ix2 (row EI 1 e) (i 1 : Fin 32)))

/-- The layered form: the summed first layer through `W₆ᵀ` per edge, summed over a node's received edges, then through `W₈ᵀ`. -/
def refAgg (X : SN.Idx → EReal) (EI : IVec SI 32) (EA : SE.Idx → EReal) (W3 W4 W5 W6 W8 : SW.Idx → EReal) : SN.Idx → EReal :=
  fun i => ∑ k : Fin 32,
    (∑ e ∈ rows EI (i 0 : Fin 100000), ∑ l : Fin 32,
        ((mulT X W3 (ix2 (row EI 0 e) l) + mulT EA W4 (ix2 e l)) + mulT X W5 (ix2 (row EI 1 e) l)) * W6 (ix2 k l))
      * W8 (ix2 (i 1 : Fin 32) k)

end Cert.MsgPass

end
-- ==== Proof.KReg.lean ====
/-
  What the two pallas_calls leave in their output arrays, as whole-array functions of the arrays they read.

  Both kernel bodies are one matrix product per output: the block of rows, rounded to bf16 (the identity over the extended
  reals), times the transposed weight into a zero accumulator. A grid point writes the block of rows it read, the blocks tile
  the array, so each output array is `A · Wᵀ` of the whole input array.

  Per kernel: the product read at an index (the dot's two operand indices at a contraction index, the transposed weight, the
  payload), the windows' index maps over the grid, each input block as rows of its array, what a point writes back as a block
  of `A · Wᵀ`, and the cover: row `r` is written by point `r / rows per block`.
-/
import proofs.«427212_j49555332662129_3_alg».proof.Proof.Gen.KernelIdeal.Frame
import proofs.«427212_j49555332662129_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KReg

open Idealize.ShloMosaic Idealize.ShloMosaic.TcCoe Idealize.ShloMosaic.ValueIdx Idealize.SL.Sem
open Cert.KernelIdeal Cert.KernelIdeal.Gen Cert.MsgPass

theorem zero_offsets : (![0, 0] : Fin 2 → Nat) = fun _ => 0 := funext fun a => by
  match a with
  | ⟨0, _⟩ => rfl
  | ⟨1, _⟩ => rfl

/-! ## The node kernel's matrix product, read at an index

The dot's dimension numbers contract the left operand's axis 1 with the right operand's axis 0 and keep the other two:
at output index `(r, q)` and contraction index `k` the operands are read at `(r, k)` and `(k, q)`. -/

theorem lhs_node_0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem lhs_node_1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
theorem rhs_node_0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
theorem rhs_node_1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- The product into the zero accumulator at `(r, q)`: the row `r` of the left operand against the column `q` of the right. -/
theorem matmul_node_apply (l : FVec Ideal S5000x32 .bf16) (w : FVec Ideal S32x32 .bf16) (r : Fin 5000) (q : Fin 32) :
    (matmul dot_S5000x32_S32x32_S5000x32_1_0_0_1_n_n none l w (constant S5000x32 .f32 0x00000000#32) : FVec Ideal S5000x32 .f32) (ix2 r q)
      = ∑ k : Fin 32, l (ix2 r k) * w (ix2 k q) := by
  simp only [matmul]
  rw [Ideal.matmul_constant_zero_apply, ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 r q) ((contrEquiv1 dot_S5000x32_S32x32_S5000x32_1_0_0_1_n_n 32 rfl rfl).symm k) = ix2 r k := funext fun a => Fin.ext (by
    match a with
    | ⟨0, _⟩ => exact lhs_node_0 _ _
    | ⟨1, _⟩ => exact (lhs_node_1 _ _).trans hk)
  have er : dot_S5000x32_S32x32_S5000x32_1_0_0_1_n_n.rhsIdx (ix2 r q) ((contrEquiv1 dot_S5000x32_S32x32_S5000x32_1_0_0_1_n_n 32 rfl rfl).symm k) = ix2 k q := funext fun a => Fin.ext (by
    match a with
    | ⟨0, _⟩ => exact (rhs_node_0 _ _).trans hk
    | ⟨1, _⟩ => exact rhs_node_1 _ _)
  rw [el, er]

/-- The transposed weight at `(k, q)` is the weight at `(q, k)`. -/
theorem transpose_weight_apply {α : Type} (w : S32x32.Idx → α) (k q : Fin 32) :
    transpose S32x32 [1, 0] w transposes_S32x32_p1_0_S32x32 (ix2 k q) = w (ix2 q k) :=
  transpose_apply [1, 0] w transposes_S32x32_p1_0_S32x32 (ix2 k q) (ix2 q k) (fun b => match b with
    | ⟨0, _⟩ => rfl
    | ⟨1, _⟩ => rfl)

/-- The first output's payload at `(r, q)`: row `r` of the block against row `q` of the weight. -/
theorem pay2_apply (x0 : Vec Ideal S5000x32 .f32) (x1 : Vec Ideal S32x32 .f32) (r : Fin 5000) (q : Fin 32) :
    k0_pay2 x0 x1 (ix2 r q) = ∑ k : Fin 32, x0 (ix2 r k) * x1 (ix2 q k) := by
  unfold k0_pay2 k0_pay1
  dsimp only
  rw [matmul_node_apply]
  refine Finset.sum_congr rfl fun k _ => ?_
  rw [transpose_weight_apply]
  simp only [truncf_apply, shapeCast_self]

/-- The second output's payload at `(r, q)`: the same product against the second weight. -/
theorem pay3_apply (x0 : Vec Ideal S5000x32 .f32) (x2 : Vec Ideal S32x32 .f32) (r : Fin 5000) (q : Fin 32) :
    k0_pay3 x0 x2 (ix2 r q) = ∑ k : Fin 32, x0 (ix2 r k) * x2 (ix2 q k) := by
  unfold k0_pay3 k0_pay1
  dsimp only
  rw [matmul_node_apply]
  refine Finset.sum_congr rfl fun k _ => ?_
  rw [transpose_weight_apply]
  simp only [truncf_apply, shapeCast_self]

/-- The third output's payload at `(r, q)`: the same product against the third weight. -/
theorem pay4_apply (x0 : Vec Ideal S5000x32 .f32) (x3 : Vec Ideal S32x32 .f32) (r : Fin 5000) (q : Fin 32) :
    k0_pay4 x0 x3 (ix2 r q) = ∑ k : Fin 32, x0 (ix2 r k) * x3 (ix2 q k) := by
  unfold k0_pay4 k0_pay1
  dsimp only
  rw [matmul_node_apply]
  refine Finset.sum_congr rfl fun k _ => ?_
  rw [transpose_weight_apply]
  simp only [truncf_apply]

/-! ## The node kernel's blocks

Point `t` of the 20 reads rows `5000 t … 5000 t + 4999` of the node features and the three whole weights, and writes the same rows
of each output. -/

variable (V : (c : Dev nD) → (b : Ref sig .tc) → Buf (Elt Ideal) ((c : Thread nD τ).loc b))

/-- The printed index maps over the grid: the row windows sit at row block `t`, the weight windows at block `(0, 0)`. -/
theorem node_index_maps : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- The node features' block at point `t`, at `(p, k)`, is the array at row `5000 t + p`. -/
theorem node_rows_apply (c : Dev nD) (t : Fin cfg0.N) (y : S5000x32.Idx) (i : S100000x32.Idx)
    (h0 : (i 0).val = t.val * 5000 + (y 0).val) (h1 : (i 1).val = (y 1).val) :
    (iblk0 V c 0 t : Vec Ideal S5000x32 .f32) y = (V c main_arg0 : S100000x32.Idx → EReal) i := by
  obtain ⟨⟨e0, e1⟩, -⟩ := node_index_maps t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 32 + 1 * (y 1).val = (i 1).val; rw [e1, h1]; omega

/-- The first weight window's block, at any point, is its whole array. -/
theorem weight1_apply (c : Dev nD) (t : Fin cfg0.N) (y : S32x32.Idx) :
    (iblk0 V c 1 t : Vec Ideal S32x32 .f32) y = (V c main_v5 : S32x32.Idx → EReal) y := by
  obtain ⟨-, ⟨e0, e1⟩, -⟩ := node_index_maps t
  unfold iblk0
  rw [View.read_apply]
  show V c main_v5 _ = V c main_v5 _
  congr 1
  funext a
  apply Fin.ext
  match a with
  | ⟨0, _⟩ => show win0_1.index t (0 : Fin 2) * 32 + 1 * (y 0).val = (y 0).val; rw [e0]; omega
  | ⟨1, _⟩ => show win0_1.index t (1 : Fin 2) * 32 + 1 * (y 1).val = (y 1).val; rw [e1]; omega

/-- The second weight window's block, at any point, is its whole array. -/
theorem weight2_apply (c : Dev nD) (t : Fin cfg0.N) (y : S32x32.Idx) :
    (iblk0 V c 2 t : Vec Ideal S32x32 .f32) y = (V c main_v7 : S32x32.Idx → EReal) y := by
  obtain ⟨-, -, ⟨e0, e1⟩, -⟩ := node_index_maps t
  unfold iblk0
  rw [View.read_apply]
  show V c main_v7 _ = V c main_v7 _
  congr 1
  funext a
  apply Fin.ext
  match a with
  | ⟨0, _⟩ => show win0_2.index t (0 : Fin 2) * 32 + 1 * (y 0).val = (y 0).val; rw [e0]; omega
  | ⟨1, _⟩ => show win0_2.index t (1 : Fin 2) * 32 + 1 * (y 1).val = (y 1).val; rw [e1]; omega

/-- The third weight window's block, at any point, is its whole array. -/
theorem weight3_apply (c : Dev nD) (t : Fin cfg0.N) (y : S32x32.Idx) :
    (iblk0 V c 3 t : Vec Ideal S32x32 .f32) y = (V c main_arg7 : S32x32.Idx → EReal) y := by
  obtain ⟨-, -, -, ⟨e0, e1⟩, -⟩ := node_index_maps t
  unfold iblk0
  rw [View.read_apply]
  show V c main_arg7 _ = V c main_arg7 _
  congr 1
  funext a
  apply Fin.ext
  match a with
  | ⟨0, _⟩ => show win0_3.index t (0 : Fin 2) * 32 + 1 * (y 0).val = (y 0).val; rw [e0]; omega
  | ⟨1, _⟩ => show win0_3.index t (1 : Fin 2) * 32 + 1 * (y 1).val = (y 1).val; rw [e1]; omega

/-! ## The first output (window 4) -/

/-- What point `t` writes back to the first output is block `t` of the node features through the first weight. -/
theorem flushed4_eq (c : Dev nD) (t : Fin cfg0.N) :
    (dat0 (F := Ideal) V c).flushed 4 t
      = ((cfg0.win 4).blk t).view.read (Elt Ideal) (mulT (a := 100000) (b := 32) (c := 32) (V c main_arg0) (V c main_v5)) := by
  show (cfg0.win 4).cut (grid0.coords t) ((dat0 V c).after 4 t) = _
  rw [after0_4]
  unfold out0_4
  rw [View.canon_unit_zero zero_offsets]
  simp only [View.ld_unit_zero (S := S5000x32) zero_offsets, View.ld_unit_zero (S := S32x32) zero_offsets]
  obtain ⟨-, -, -, -, ⟨e0, e1⟩, -⟩ := node_index_maps t
  funext j
  obtain ⟨p, q, rfl⟩ : ∃ (p : Fin 5000) (q : Fin 32), j = ix2 p q := ⟨j 0, j 1, eq_ix2 j⟩
  show k0_pay2 (iblk0 V c 0 t) (iblk0 V c 1 t) (ix2 p q)
    = mulT (a := 100000) (b := 32) (c := 32) (V c main_arg0) (V c main_v5) (((cfg0.win 4).blk t).view.emb (ix2 p q))
  rw [pay2_apply]
  unfold mulT
  refine Finset.sum_congr rfl fun k _ => ?_
  rw [weight1_apply V c t]
  rw [node_rows_apply V c t (ix2 p k) (ix2 ((((cfg0.win 4).blk t).view.emb (ix2 p q)) 0 : Fin 100000) k)
    (by show win0_4.index t (0 : Fin 2) * 5000 + 1 * p.val = t.val * 5000 + p.val; rw [e0]; omega) rfl]
  congr 2
  funext a
  apply Fin.ext
  match a with
  | ⟨0, _⟩ => show q.val = win0_4.index t (1 : Fin 2) * 32 + 1 * q.val; rw [e1]; omega
  | ⟨1, _⟩ => rfl

/-- An index of the first output is in point `t`'s block iff each coordinate is in the block's range on its axis. -/
theorem mem_blk4 (t : Fin cfg0.N) (i : S100000x32.Idx) :
    i ∈ ((cfg0.win 4).blk t).view.set ↔ ∀ a : Fin 2, win0_4.index t a * S5000x32.size a ≤ (i a).val ∧ (i a).val < win0_4.index t a * S5000x32.size a + S5000x32.size a := by
  show i ∈ ((View.whole main_v8_0).slice (win0_4.rect t)).set ↔ _
  rw [View.set_slice_whole, Rect.mem_set_unit]
  exact Iff.rfl

/-- Row `r` of the first output is written by point `r / 5000`. -/
theorem cover4 (i : S100000x32.Idx) : ∃ t : Fin cfg0.N, (cfg0.win 4).flush t = true ∧ i ∈ ((cfg0.win 4).blk t).view.set := by
  have hi0 : (i 0).val < 100000 := (i 0).isLt
  have hi1 : (i 1).val < 32 := (i 1).isLt
  have hN : grid0.N = 20 := N_0
  obtain ⟨t, ht⟩ : ∃ t : Fin cfg0.N, t.val = (i 0).val / 5000 := ⟨⟨(i 0).val / 5000, by show _ < grid0.N; omega⟩, rfl⟩
  obtain ⟨-, -, -, -, ⟨e0, e1⟩, -⟩ := node_index_maps t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; rw [e0, ht]; omega
  | ⟨1, _⟩ => show win0_4.index t (1 : Fin 2) * 32 ≤ (i 1).val ∧ (i 1).val < win0_4.index t (1 : Fin 2) * 32 + 32; rw [e1]; omega

/-- The node kernel's first output (window 4): the node features through the first weight window's matrix. -/
theorem reg0_out4 (c : Dev nD) :
    (dat0 (F := Ideal) V c).arrAt 4 cfg0.N = mulT (a := 100000) (b := 32) (c := 32) (V c main_arg0) (V c main_v5) :=
  (dat0 (F := Ideal) V c).arrAt_eq_of_cover 4 (mulT (a := 100000) (b := 32) (c := 32) (V c main_arg0) (V c main_v5))
    (fun t _ => flushed4_eq V c t) cover4

/-! ## The second output (window 5) -/

/-- What point `t` writes back to the second output is block `t` of the node features through the second weight. -/
theorem flushed5_eq (c : Dev nD) (t : Fin cfg0.N) :
    (dat0 (F := Ideal) V c).flushed 5 t
      = ((cfg0.win 5).blk t).view.read (Elt Ideal) (mulT (a := 100000) (b := 32) (c := 32) (V c main_arg0) (V c main_v7)) := by
  show (cfg0.win 5).cut (grid0.coords t) ((dat0 V c).after 5 t) = _
  rw [after0_5]
  unfold out0_5
  rw [View.canon_unit_zero zero_offsets]
  simp only [View.ld_unit_zero (S := S5000x32) zero_offsets, View.ld_unit_zero (S := S32x32) zero_offsets]
  obtain ⟨-, -, -, -, -, ⟨e0, e1⟩, -⟩ := node_index_maps t
  funext j
  obtain ⟨p, q, rfl⟩ : ∃ (p : Fin 5000) (q : Fin 32), j = ix2 p q := ⟨j 0, j 1, eq_ix2 j⟩
  show k0_pay3 (iblk0 V c 0 t) (iblk0 V c 2 t) (ix2 p q)
    = mulT (a := 100000) (b := 32) (c := 32) (V c main_arg0) (V c main_v7) (((cfg0.win 5).blk t).view.emb (ix2 p q))
  rw [pay3_apply]
  unfold mulT
  refine Finset.sum_congr rfl fun k _ => ?_
  rw [weight2_apply V c t]
  rw [node_rows_apply V c t (ix2 p k) (ix2 ((((cfg0.win 5).blk t).view.emb (ix2 p q)) 0 : Fin 100000) k)
    (by show win0_5.index t (0 : Fin 2) * 5000 + 1 * p.val = t.val * 5000 + p.val; rw [e0]; omega) rfl]
  congr 2
  funext a
  apply Fin.ext
  match a with
  | ⟨0, _⟩ => show q.val = win0_5.index t (1 : Fin 2) * 32 + 1 * q.val; rw [e1]; omega
  | ⟨1, _⟩ => rfl

/-- An index of the second output is in point `t`'s block iff each coordinate is in the block's range on its axis. -/
theorem mem_blk5 (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v8_1).slice (win0_5.rect t)).set ↔ _
  rw [View.set_slice_whole, Rect.mem_set_unit]
  exact Iff.rfl

/-- Row `r` of the second output is written by point `r / 5000`. -/
theorem cover5 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : grid0.N = 20 := N_0
  obtain ⟨t, ht⟩ : ∃ t : Fin cfg0.N, t.val = (i 0).val / 5000 := ⟨⟨(i 0).val / 5000, by show _ < grid0.N; omega⟩, rfl⟩
  obtain ⟨-, -, -, -, -, ⟨e0, e1⟩, -⟩ := node_index_maps t
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 32 ≤ (i 1).val ∧ (i 1).val < win0_5.index t (1 : Fin 2) * 32 + 32; rw [e1]; omega

/-- Its second output (window 5): through the second weight window's matrix. -/
theorem reg0_out5 (c : Dev nD) :
    (dat0 (F := Ideal) V c).arrAt 5 cfg0.N = mulT (a := 100000) (b := 32) (c := 32) (V c main_arg0) (V c main_v7) :=
  (dat0 (F := Ideal) V c).arrAt_eq_of_cover 5 (mulT (a := 100000) (b := 32) (c := 32) (V c main_arg0) (V c main_v7))
    (fun t _ => flushed5_eq V c t) cover5

/-! ## The third output (window 6) -/

/-- What point `t` writes back to the third output is block `t` of the node features through the third weight. -/
theorem flushed6_eq (c : Dev nD) (t : Fin cfg0.N) :
    (dat0 (F := Ideal) V c).flushed 6 t
      = ((cfg0.win 6).blk t).view.read (Elt Ideal) (mulT (a := 100000) (b := 32) (c := 32) (V c main_arg0) (V c main_arg7)) := by
  show (cfg0.win 6).cut (grid0.coords t) ((dat0 V c).after 6 t) = _
  rw [after0_6]
  unfold out0_6
  rw [View.canon_unit_zero zero_offsets]
  simp only [View.ld_unit_zero (S := S5000x32) zero_offsets, View.ld_unit_zero (S := S32x32) zero_offsets]
  obtain ⟨-, -, -, -, -, -, e0, e1⟩ := node_index_maps t
  funext j
  obtain ⟨p, q, rfl⟩ : ∃ (p : Fin 5000) (q : Fin 32), j = ix2 p q := ⟨j 0, j 1, eq_ix2 j⟩
  show k0_pay4 (iblk0 V c 0 t) (iblk0 V c 3 t) (ix2 p q)
    = mulT (a := 100000) (b := 32) (c := 32) (V c main_arg0) (V c main_arg7) (((cfg0.win 6).blk t).view.emb (ix2 p q))
  rw [pay4_apply]
  unfold mulT
  refine Finset.sum_congr rfl fun k _ => ?_
  rw [weight3_apply V c t]
  rw [node_rows_apply V c t (ix2 p k) (ix2 ((((cfg0.win 6).blk t).view.emb (ix2 p q)) 0 : Fin 100000) k)
    (by show win0_6.index t (0 : Fin 2) * 5000 + 1 * p.val = t.val * 5000 + p.val; rw [e0]; omega) rfl]
  congr 2
  funext a
  apply Fin.ext
  match a with
  | ⟨0, _⟩ => show q.val = win0_6.index t (1 : Fin 2) * 32 + 1 * q.val; rw [e1]; omega
  | ⟨1, _⟩ => rfl

/-- An index of the third output is in point `t`'s block iff each coordinate is in the block's range on its axis. -/
theorem mem_blk6 (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v8_2).slice (win0_6.rect t)).set ↔ _
  rw [View.set_slice_whole, Rect.mem_set_unit]
  exact Iff.rfl

/-- Row `r` of the third output is written by point `r / 5000`. -/
theorem cover6 (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  have hN : grid0.N = 20 := N_0
  obtain ⟨t, ht⟩ : ∃ t : Fin cfg0.N, t.val = (i 0).val / 5000 := ⟨⟨(i 0).val / 5000, by show _ < grid0.N; omega⟩, rfl⟩
  obtain ⟨-, -, -, -, -, -, e0, e1⟩ := node_index_maps t
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 32 ≤ (i 1).val ∧ (i 1).val < win0_6.index t (1 : Fin 2) * 32 + 32; rw [e1]; omega

/-- Its third output (window 6): through the third weight window's matrix. -/
theorem reg0_out6 (c : Dev nD) :
    (dat0 (F := Ideal) V c).arrAt 6 cfg0.N = mulT (a := 100000) (b := 32) (c := 32) (V c main_arg0) (V c main_arg7) :=
  (dat0 (F := Ideal) V c).arrAt_eq_of_cover 6 (mulT (a := 100000) (b := 32) (c := 32) (V c main_arg0) (V c main_arg7))
    (fun t _ => flushed6_eq V c t) cover6

/-! ## The edge kernel's matrix product, read at an index

The same dimension numbers over `[10000, 128] × [128, 128]`: at output index `(r, q)` and contraction index `k` the operands
are read at `(r, k)` and `(k, q)`. -/

theorem lhs_edge_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_edge_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_edge_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_edge_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero accumulator at `(r, q)`: the row `r` of the left operand against the column `q` of the right. -/
theorem matmul_edge_apply (l : FVec Ideal S10000x128 .bf16) (w : FVec Ideal S128x128 .bf16) (r : Fin 10000) (q : Fin 128) :
    (matmul dot_S10000x128_S128x128_S10000x128_1_0_0_1_n_n none l w (constant S10000x128 .f32 0x00000000#32) : FVec Ideal S10000x128 .f32) (ix2 r q)
      = ∑ k : Fin 128, l (ix2 r k) * w (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r q) ((contrEquiv1 dot_S10000x128_S128x128_S10000x128_1_0_0_1_n_n 128 rfl rfl).symm k) = ix2 r k := funext fun a => Fin.ext (by
    match a with
    | ⟨0, _⟩ => exact lhs_edge_0 _ _
    | ⟨1, _⟩ => exact (lhs_edge_1 _ _).trans hk)
  have er : dot_S10000x128_S128x128_S10000x128_1_0_0_1_n_n.rhsIdx (ix2 r q) ((contrEquiv1 dot_S10000x128_S128x128_S10000x128_1_0_0_1_n_n 128 rfl rfl).symm k) = ix2 k q := funext fun a => Fin.ext (by
    match a with
    | ⟨0, _⟩ => exact (rhs_edge_0 _ _).trans hk
    | ⟨1, _⟩ => exact rhs_edge_1 _ _)
  rw [el, er]

/-- The transposed 128 × 128 weight at `(k, q)` is the weight at `(q, k)`. -/
theorem transpose_edge_weight_apply {α : Type} (w : S128x128.Idx → α) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

/-- The edge kernel's payload at `(r, q)`: row `r` of the block against row `q` of the weight. -/
theorem edge_pay_apply (x0 : Vec Ideal S10000x128 .f32) (x1 : Vec Ideal S128x128 .f32) (r : Fin 10000) (q : Fin 128) :
    k1_pay1 x0 x1 (ix2 r q) = ∑ k : Fin 128, x0 (ix2 r k) * x1 (ix2 q k) := by
  unfold k1_pay1
  dsimp only
  rw [matmul_edge_apply]
  refine Finset.sum_congr rfl fun k _ => ?_
  rw [transpose_edge_weight_apply]
  simp only [truncf_apply, shapeCast_self]

/-! ## The edge kernel's blocks

Point `t` of the 50 reads rows `10000 t … 10000 t + 9999` of the lane-dense edge features and the whole 128 × 128 weight, and
writes the same rows of the output. -/

/-- The printed index maps over the grid: the row windows sit at row block `t`, the weight window at block `(0, 0)`. -/
theorem edge_index_maps : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0) :=
  (by decide +kernel : ∀ t : Fin grid1.N, _)

/-- The edge features' block at point `t`, at `(p, k)`, is the array at row `10000 t + p`. -/
theorem edge_rows_apply (c : Dev nD) (t : Fin cfg1.N) (y : S10000x128.Idx) (i : S500000x128.Idx)
    (h0 : (i 0).val = t.val * 10000 + (y 0).val) (h1 : (i 1).val = (y 1).val) :
    (iblk1 V c 0 t : Vec Ideal S10000x128 .f32) y = (V c main_v9 : S500000x128.Idx → EReal) i := by
  obtain ⟨⟨e0, e1⟩, -⟩ := edge_index_maps t
  unfold iblk1
  rw [View.read_apply]
  show V c main_v9 _ = V c main_v9 _
  congr 1
  funext a
  apply Fin.ext
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

/-- The weight window's block, at any point, is its whole array. -/
theorem edge_weight_apply (c : Dev nD) (t : Fin cfg1.N) (y : S128x128.Idx) :
    (iblk1 V c 1 t : Vec Ideal S128x128 .f32) y = (V c main_v16 : S128x128.Idx → EReal) y := by
  obtain ⟨-, ⟨e0, e1⟩, -⟩ := edge_index_maps t
  unfold iblk1
  rw [View.read_apply]
  show V c main_v16 _ = V c main_v16 _
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-! ## The edge kernel's output (window 2) -/

/-- What point `t` writes back is block `t` of the edge features through the 128 × 128 weight. -/
theorem edge_flushed_eq (c : Dev nD) (t : Fin cfg1.N) :
    (dat1 (F := Ideal) V c).flushed 2 t
      = ((cfg1.win 2).blk t).view.read (Elt Ideal) (mulT (a := 500000) (b := 128) (c := 128) (V c main_v9) (V c main_v16)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S128x128) zero_offsets]
  obtain ⟨-, -, e0, e1⟩ := edge_index_maps t
  funext j
  obtain ⟨p, q, rfl⟩ : ∃ (p : Fin 10000) (q : Fin 128), j = ix2 p q := ⟨j 0, j 1, eq_ix2 j⟩
  show k1_pay1 (iblk1 V c 0 t) (iblk1 V c 1 t) (ix2 p q)
    = mulT (a := 500000) (b := 128) (c := 128) (V c main_v9) (V c main_v16) (((cfg1.win 2).blk t).view.emb (ix2 p q))
  rw [edge_pay_apply]
  unfold mulT
  refine Finset.sum_congr rfl fun k _ => ?_
  rw [edge_weight_apply V c t]
  rw [edge_rows_apply V c t (ix2 p k) (ix2 ((((cfg1.win 2).blk t).view.emb (ix2 p q)) 0 : Fin 500000) k)
    (by show win1_2.index t (0 : Fin 2) * 10000 + 1 * p.val = t.val * 10000 + p.val; rw [e0]; omega) rfl]
  congr 2
  funext a
  apply Fin.ext
  match a with
  | ⟨0, _⟩ => show q.val = win1_2.index t (1 : Fin 2) * 128 + 1 * q.val; rw [e1]; omega
  | ⟨1, _⟩ => rfl

/-- An index of the output is in point `t`'s block iff each coordinate is in the block's range on its axis. -/
theorem edge_mem_blk (t : Fin cfg1.N) (i : S500000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v17).slice (win1_2.rect t)).set ↔ _
  rw [View.set_slice_whole, Rect.mem_set_unit]
  exact Iff.rfl

/-- Row `r` of the output is written by point `r / 10000`. -/
theorem edge_cover (i : S500000x128.Idx) : ∃ t : Fin cfg1.N, (cfg1.win 2).flush t = true ∧ i ∈ ((cfg1.win 2).blk t).view.set := by
  have hi0 : (i 0).val < 500000 := (i 0).isLt
  have hi1 : (i 1).val < 128 := (i 1).isLt
  have hN : grid1.N = 50 := N_1
  obtain ⟨t, ht⟩ : ∃ t : Fin cfg1.N, t.val = (i 0).val / 10000 := ⟨⟨(i 0).val / 10000, by show _ < grid1.N; omega⟩, rfl⟩
  obtain ⟨-, -, e0, e1⟩ := edge_index_maps t
  refine ⟨t, flush1_2 t, ?_⟩
  rw [edge_mem_blk]
  intro a
  match a with
  | ⟨0, _⟩ => show win1_2.index t (0 : Fin 2) * 10000 ≤ (i 0).val ∧ (i 0).val < win1_2.index t (0 : Fin 2) * 10000 + 10000; rw [e0, ht]; omega
  | ⟨1, _⟩ => show win1_2.index t (1 : Fin 2) * 128 ≤ (i 1).val ∧ (i 1).val < win1_2.index t (1 : Fin 2) * 128 + 128; rw [e1]; omega

/-- The edge kernel's output (window 2): the lane-dense edge features `[500000, 128]` through the 128 × 128 matrix. -/
theorem reg1_out2 (c : Dev nD) :
    (dat1 (F := Ideal) V c).arrAt 2 cfg1.N = mulT (a := 500000) (b := 128) (c := 128) (V c main_v9) (V c main_v16) :=
  (dat1 (F := Ideal) V c).arrAt_eq_of_cover 2 (mulT (a := 500000) (b := 128) (c := 128) (V c main_v9) (V c main_v16))
    (fun t _ => edge_flushed_eq V c t) edge_cover

end Cert.KernelIdeal.KReg

end
-- ==== Proof.Edge.lean ====
/-
  The lane-dense edge projection is the plain one.

  The edge features `EA : [2000000, 32]` are re-laid row-major as `[500000, 128]` (four consecutive edges per row), multiplied
  by `kron(eye(4), E)ᵀ`, and re-laid back. Entry `(32·a + p, 32·b + l)` of `kron(eye(4), E)` is `[a = b] · E[p, l]`, so in the sum
  over the 128 lanes only the 32 lanes of the edge's own group survive, and what is left is `∑ l, EA[e, l] · E[p, l]`. Zero and
  one are exact over the extended reals (`0 · x = 0`, `1 · x = x`, also at an infinity), so nothing is asked of `EA` or `E`.
-/
import proofs.«427212_j49555332662129_3_alg».proof.Proof.KDefs
import proofs.«427212_j49555332662129_3_alg».proof.Proof.Spec
import Idealize.ShloMosaic.Lib.Pipeline.Value
import Idealize.ShloMosaic.Lib.ValueIdx
import Idealize.ShloMosaic.Lib.ValueLayout
import Idealize.ShloMosaic.Lib.StableHlo.Predicate

noncomputable section

namespace Cert.KernelIdeal.Edge

open Idealize.ShloMosaic Idealize.ShloMosaic.ValueIdx
open Cert.KernelIdeal Cert.KernelIdeal.Gen Cert.KernelIdeal.KDefs Cert.MsgPass

/-- The 4 × 4 identity as the program makes it: row number compared with column number, the bit converted to a float. -/
theorem eyeMask_apply (a b : Fin 4) :
    (uitofp .f32
        (cmpi .eq (addi (iotaInDim S4x4 32 0) (broadcastInDim S4x4 ![] bcast_S_S4x4 (constantI S_ 32 0#32)))
          (iotaInDim S4x4 32 1)) : FVec Ideal S4x4 .f32) (ix2 a b)
      = if a = b then 1 else 0 := by
  show FloatOps.uitofp (F := Ideal) .f32 (IntOp.cmpi .eq (BitVec.ofNat 32 a.val + 0#32) (BitVec.ofNat 32 b.val)) = _
  rw [BitVec.add_zero]
  by_cases h : a = b
  · subst h
    rw [if_pos rfl, StableHlo.Predicate.cmpi_eq_iff.2 rfl]
    show (((1#1 : BitVec 1).toNat : ℝ) : EReal) = 1
    simp
  · rw [if_neg h]
    have ha : a.val < 4 := a.isLt
    have hb : b.val < 4 := b.isLt
    have hne : ¬ (BitVec.ofNat 32 a.val = BitVec.ofNat 32 b.val) := by
      intro he
      apply h
      have h2 := congrArg BitVec.toNat he
      rw [BitVec.toNat_ofNat, BitVec.toNat_ofNat] at h2
      apply Fin.ext
      omega
    rw [eq_zero_of_ne_one (mt StableHlo.Predicate.cmpi_eq_iff.1 hne)]
    show (((0#1 : BitVec 1).toNat : ℝ) : EReal) = 0
    simp

/-- Entry `(32·a + p, 32·b + l)` of `kron(eye(4), E)` is `[a = b] · E[p, l]`. -/
theorem kronEye_apply (E : FVec Ideal S32x32 .f32) (a b : Fin 4) (p l : Fin 32) (c c' : Fin 128)
    (hc : c.val = 32 * a.val + p.val) (hc' : c'.val = 32 * b.val + l.val) :
    kronEye (F := Ideal) E (ix2 c c') = (if a = b then 1 else 0) * E (ix2 p l) := by
  unfold kronEye
  refine (shapeCast_apply _ shapeCasts_S4x32x4x32_S128x128 (ix2 c c') (ix4 a p b l) (by
    rw [Shape.rowMajor_val_two, Shape.rowMajor_val_four]
    show ((a.val * 32 + p.val) * 4 + b.val) * 32 + l.val = c.val * 128 + c'.val
    omega)).trans ?_
  rw [mulf_apply]
  congr 1
  · refine (broadcastInDim_apply _ bcast_S4x1x4x1_S4x32x4x32_0_1_2_3 _ (ix4 a p b l) (ix4 a (0 : Fin 1) b (0 : Fin 1))
      (fun x => match x with | ⟨0, _⟩ => rfl | ⟨1, _⟩ => rfl | ⟨2, _⟩ => rfl | ⟨3, _⟩ => rfl)).trans ?_
    refine (broadcastInDim_apply _ bcast_S4x4_S4x1x4x1_0_2 _ (ix4 a (0 : Fin 1) b (0 : Fin 1)) (ix2 a b)
      (fun x => match x with | ⟨0, _⟩ => rfl | ⟨1, _⟩ => rfl)).trans ?_
    exact eyeMask_apply a b
  · refine (broadcastInDim_apply _ bcast_S1x32x1x32_S4x32x4x32_0_1_2_3 _ (ix4 a p b l) (ix4 (0 : Fin 1) p (0 : Fin 1) l)
      (fun x => match x with | ⟨0, _⟩ => rfl | ⟨1, _⟩ => rfl | ⟨2, _⟩ => rfl | ⟨3, _⟩ => rfl)).trans ?_
    exact broadcastInDim_apply _ bcast_S32x32_S1x32x1x32_1_3 _ (ix4 (0 : Fin 1) p (0 : Fin 1) l) (ix2 p l)
      (fun x => match x with | ⟨0, _⟩ => rfl | ⟨1, _⟩ => rfl)

/-- A sum over the 128 lanes is the sum over the four groups of the sums over a group's 32 lanes. -/
theorem sum_lanes {M : Type*} [AddCommMonoid M] (f : Fin 128 → M) :
    ∑ k, f k = ∑ b : Fin 4, ∑ m : Fin 32, f ⟨32 * b.val + m.val, by omega⟩ := by
  rw [← Equiv.sum_comp (finProdFinEquiv : Fin 4 × Fin 32 ≃ Fin 128) f, Fintype.sum_prod_type]
  refine Finset.sum_congr rfl fun b _ => Finset.sum_congr rfl fun m _ => ?_
  congr 1
  apply Fin.ext
  show m.val + 32 * b.val = 32 * b.val + m.val
  omega

/-- Row `r`, lane `32·b + m` of the re-laid edge features is edge `4·r + b`, feature `m`. -/
theorem relaid_apply (EA : FVec Ideal S2000000x32 .f32) (r : Fin 500000) (b : Fin 4) (m : Fin 32) (k : Fin 128) (e : Fin 2000000)
    (hk : k.val = 32 * b.val + m.val) (he : e.val = 4 * r.val + b.val) :
    shapeCast S500000x128 EA shapeCasts_S2000000x32_S500000x128 (ix2 r k) = EA (ix2 e m) := by
  refine shapeCast_apply _ shapeCasts_S2000000x32_S500000x128 (ix2 r k) (ix2 e m) ?_
  rw [Shape.rowMajor_val_two, Shape.rowMajor_val_two]
  show e.val * 32 + m.val = r.val * 128 + k.val
  omega

/-- Re-laid to 128 lanes, through `kron(eye(4), E)ᵀ`, re-laid back: `EA · Eᵀ`. -/
theorem edge_eq (EA : FVec Ideal S2000000x32 .f32) (E : FVec Ideal S32x32 .f32) :
    shapeCast S2000000x32
      (mulT (a := 500000) (b := 128) (c := 128) (shapeCast S500000x128 EA shapeCasts_S2000000x32_S500000x128) (kronEye (F := Ideal) E))
      shapeCasts_S500000x128_S2000000x32
    = mulT (a := 2000000) (b := 32) (c := 32) EA E := by
  funext j
  obtain ⟨e, l, rfl⟩ : ∃ (e : Fin 2000000) (l : Fin 32), j = ix2 e l := ⟨j 0, j 1, eq_ix2 j⟩
  have he : e.val < 2000000 := e.isLt
  have hl : l.val < 32 := l.isLt
  -- the edge's row and its group within the row
  let r : Fin 500000 := ⟨e.val / 4, by omega⟩
  let a : Fin 4 := ⟨e.val % 4, by omega⟩
  let c : Fin 128 := ⟨32 * a.val + l.val, by have := a.isLt; omega⟩
  have hr : r.val = e.val / 4 := rfl
  have ha : a.val = e.val % 4 := rfl
  have hcv : c.val = 32 * a.val + l.val := rfl
  refine (shapeCast_apply _ shapeCasts_S500000x128_S2000000x32 (ix2 e l) (ix2 r c) (by
    rw [Shape.rowMajor_val_two, Shape.rowMajor_val_two]
    show r.val * 128 + c.val = e.val * 32 + l.val
    omega)).trans ?_
  show ∑ k : Fin 128, shapeCast S500000x128 EA shapeCasts_S2000000x32_S500000x128 (ix2 r k) * kronEye (F := Ideal) E (ix2 c k)
      = ∑ k : Fin 32, EA (ix2 e k) * E (ix2 l k)
  rw [sum_lanes]
  rw [Finset.sum_eq_single a]
  · refine Finset.sum_congr rfl fun m _ => ?_
    rw [relaid_apply EA r a m _ e rfl (by omega), kronEye_apply E a a l m c _ hcv rfl, if_pos rfl, one_mul]
  · intro b _ hb
    refine Finset.sum_eq_zero fun m _ => ?_
    rw [kronEye_apply E a b l m c _ hcv rfl, if_neg (Ne.symm hb), zero_mul, mul_zero]
  · intro h; exact absurd (Finset.mem_univ a) h

end Cert.KernelIdeal.Edge

end
-- ==== Proof.LibRowGather.lean ====
/-
  A row gather read at an index.

  jnp's `table[idx]` of a matrix `table : [N, C]` at a vector of row numbers lowers to a `stablehlo.gather` whose
  start indices are the column `[n, 1]` of row numbers: operand axis 0 is collapsed and is the one start-indexed axis,
  axis 1 of the result is the one offset axis and carries the whole row (slice sizes `[1, C]`). Result element
  `(k, q)` is then the table's entry `(r, q)`, where `r` is the `k`-th row number read as a signed integer and
  clamped into `[0, N - 1]`: a row gather never reads outside the table, a negative row number reads row 0 and one
  past the end reads the last row.
-/
import Idealize.ShloMosaic.Lib.ValueIdx

noncomputable section

namespace Idealize.ShloMosaic.RowGather

open Idealize.ShloMosaic Idealize.ShloMosaic.ValueIdx

variable {α : Type}

/-- The dimension numbers of a row gather from a table `[N, C]` by a column `[n, 1]` of row numbers into `[n, C]`; their
    conditions `wf` are decided on a program's literal shapes. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, q)`: the table at row `idx[k, 0]`, read signed and clamped into `[0, N - 1]`, and
    column `q`. On the row axis the start is the clamped row number and nothing is added to it (the axis is collapsed and
    there is no batching axis); on the column axis the start is zero (the axis is not start-indexed) and the offset is
    the result's own column. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (k : Fin n) (q : Fin C) :
    Host.gather (rowDims N C n wf) x idx (ix2 k q)
      = x (ix2 ⟨min (idx (ix2 k (0 : Fin 1))).toInt.toNat (N - 1), by omega⟩ q) := by
  unfold Host.gather
  congr 1
  funext a
  refine Fin.ext ?_
  match a with
  | ⟨0, _⟩ =>
    show (rowDims N C n wf).start (ix2 k q) idx 0 + (rowDims N C n wf).batchCoord (ix2 k q) 0
        + (rowDims N C n wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 k q) ⟨List.idxOf (0 : Fin 2) (rowDims N C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowDims N C n wf).start (ix2 k q) idx 1 + (rowDims N C n wf).batchCoord (ix2 k q) 1
        + (rowDims N C n wf).offCoord (ix2 k q) 1 = q.val
    rw [GatherDims.batchCoord_eq_zero _ _ _ List.not_mem_nil]
    unfold GatherDims.start
    have h1 : ¬ (1 : Fin 2) ∈ ([0] : List (Fin 2)) := by decide
    rw [dif_neg (show ¬ (1 : Fin 2) ∈ (rowDims N C n wf).startIndexMap from h1)]
    unfold GatherDims.offCoord
    rw [dif_pos ((GatherDims.mem_sKept _ _).mpr ⟨h1, List.not_mem_nil⟩), Nat.zero_add]
    rfl

end Idealize.ShloMosaic.RowGather

end
-- ==== Proof.TakeVal.lean ====
/-
  `jnp.take` at a row number that is a node number reads that row.
-/
import proofs.«427212_j49555332662129_3_alg».proof.Proof.KDefs
import proofs.«427212_j49555332662129_3_alg».proof.Proof.LibRowGather
import Idealize.ShloMosaic.Lib.ValueIdx
import Idealize.ShloMosaic.Lib.StableHlo.Predicate

noncomputable section

namespace Cert.KernelIdeal.TakeVal

open Idealize.ShloMosaic Idealize.ShloMosaic.ValueIdx
open Cert.KernelIdeal Cert.KernelIdeal.Gen Cert.KernelIdeal.KDefs

/-! ## Three signed comparisons of a word in `[0, 100000)` -/

theorem slt_zero_of_nonneg (w : BitVec 32) (h : 0 ≤ w.toInt) : IntOp.cmpi .slt w 0#32 = 0#1 := by
  show BitVec.ofBool (w.slt 0#32) = 0#1
  rw [BitVec.slt_eq_decide, BitVec.toInt_zero, decide_eq_false (by omega)]
  rfl

theorem sge_zero_of_nonneg (w : BitVec 32) (h : 0 ≤ w.toInt) : IntOp.cmpi .sge w 0#32 = 1#1 := by
  show BitVec.ofBool ((0#32).sle w) = 1#1
  rw [BitVec.sle_eq_decide, BitVec.toInt_zero, decide_eq_true h]
  rfl

theorem sle_top_of_lt (w : BitVec 32) (h : w.toInt < 100000) : IntOp.cmpi .sle w 99999#32 = 1#1 := by
  show BitVec.ofBool (w.sle 99999#32) = 1#1
  have h9 : (99999#32).toInt = 99999 := by decide
  rw [BitVec.sle_eq_decide, h9, decide_eq_true (by omega)]
  rfl

/-! ## Two broadcasts of a vector read at an index -/

theorem col_apply {α : Type} (v : S2000000.Idx → α) (e : Fin 2000000) :
    broadcastInDim S2000000x1 ![0] bcast_S2000000_S2000000x1_0 v (ix2 e (0 : Fin 1)) = v (ix1 e) := by
  simp only [broadcastInDim]
  congr 1
  funext a
  match a with
  | ⟨0, _⟩ =>
    apply Fin.ext
    split
    · next h1 => change (2000000 : Nat) = 1 at h1; omega
    · rfl

theorem rows_apply {α : Type} (v : S2000000.Idx → α) (e : Fin 2000000) (q : Fin 32) :
    broadcastInDim S2000000x32 ![0] bcast_S2000000_S2000000x32_0 v (ix2 e q) = v (ix1 e) := by
  simp only [broadcastInDim]
  congr 1
  funext a
  match a with
  | ⟨0, _⟩ =>
    apply Fin.ext
    split
    · next h1 => change (2000000 : Nat) = 1 at h1; omega
    · rfl

/-! ## A fold of `and` over ones, from one -/

theorem foldl_andi_ones {ι : Type} (X : ι → BitVec 1) (l : List ι) (hl : ∀ i ∈ l, X i = 1#1) :
    l.foldl (fun r i => IntOp.andi r (X i)) 1#1 = 1#1 := by
  induction l with
  | nil => rfl
  | cons a l ih =>
    have h11 : IntOp.andi 1#1 1#1 = (1#1 : BitVec 1) := by decide
    rw [List.foldl_cons, hl a List.mem_cons_self, h11]
    exact ih (fun i hi => hl i (List.mem_cons_of_mem _ hi))

/-! ## The row number as `take` uses it -/

/-- A row number that is not negative has nothing added to it. -/
theorem takeIdx_apply (iv : IVec S2000000 32) (e : Fin 2000000) (h0 : 0 ≤ (iv (ix1 e)).toInt) :
    KDefs.takeIdx iv (ix2 e (0 : Fin 1)) = iv (ix1 e) := by
  unfold KDefs.takeIdx
  rw [col_apply, select_apply]
  have hc : cmpi .slt iv (broadcastInDim S2000000 ![] bcast_S_S2000000 (constantI S_ 32 0#32)) (ix1 e) = 0#1 :=
    slt_zero_of_nonneg (iv (ix1 e)) h0
  rw [hc, select_zero]

/-! ## The range test -/

/-- The one-column mask, reduced by `and` along its one column, is true at a row whose number is in `[0, 100000)`. -/
theorem mask_apply (iv : IVec S2000000 32) (e : Fin 2000000)
    (h : 0 ≤ (iv (ix1 e)).toInt ∧ (iv (ix1 e)).toInt < 100000) :
    Host.reduce IntOp.andi
        (andi (cmpi .sge (KDefs.takeIdx iv) (broadcastInDim S2000000x1 ![] bcast_S_S2000000x1 (constantI S_ 32 0#32)))
          (cmpi .sle (KDefs.takeIdx iv)
            (broadcastInDim S2000000x1 ![0, 1] bcast_S1x1_S2000000x1_0_1
              (broadcastInDim S1x1 ![1] bcast_S1_S1x1_1 (constantI S1 32 99999#32)))))
        (constantI S_ 1 1#1) reducesTo_S2000000x1_S2000000_d1 h_S_ (ix1 e) = 1#1 := by
  rw [Host.reduce_eq_foldl]
  refine foldl_andi_ones _ _ ?_
  intro i hi
  have hd : reducesTo_S2000000x1_S2000000_d1.drop i = ix1 e := of_decide_eq_true (List.mem_filter.1 hi).2
  -- the only column index that reduces into row `e` is `(e, 0)`
  have hi0 : i = ix2 e (0 : Fin 1) := by
    funext a
    match a with
    | ⟨0, _⟩ =>
      apply Fin.ext
      have hv := Shape.ReducesTo.drop_apply_val_of_eq reducesTo_S2000000x1_S2000000_d1 i (0 : Fin 1) (0 : Fin 2)
      rw [hd] at hv
      exact hv.symm
    | ⟨1, hlt⟩ =>
      apply Fin.ext
      have h1 : (i ⟨1, hlt⟩).val < 1 := (i ⟨1, hlt⟩).isLt
      show (i ⟨1, hlt⟩).val = 0
      omega
  subst hi0
  show IntOp.andi (IntOp.cmpi .sge (KDefs.takeIdx iv (ix2 e (0 : Fin 1))) 0#32)
      (IntOp.cmpi .sle (KDefs.takeIdx iv (ix2 e (0 : Fin 1))) 99999#32) = 1#1
  rw [takeIdx_apply iv e h.1, sge_zero_of_nonneg _ h.1, sle_top_of_lt _ h.2]
  decide

/-- Where row number `iv[e]`, read as a signed integer, lies in `[0, 100000)`, `take T iv` at `(e, q)` is the table's entry
    `(iv[e], q)`: the row number is not negative, so nothing is added to it; it passes the range test, so the gathered row
    is selected; and the gather's clamp into `[0, 99999]` leaves it as it is. -/
theorem take_apply (T : FVec Ideal S100000x32 .f32) (iv : IVec S2000000 32) (e : Fin 2000000) (q : Fin 32)
    (h : 0 ≤ (iv (ix1 e)).toInt ∧ (iv (ix1 e)).toInt < 100000) :
    take (F := Ideal) T iv (ix2 e q) = T (ix2 (⟨min (iv (ix1 e)).toInt.toNat 99999, by omega⟩ : Fin 100000) q) := by
  unfold take
  rw [select_apply, rows_apply, mask_apply iv e h, select_one]
  have hg := RowGather.gather_rows_apply (N := 100000) (C := 32) (n := 2000000) (w := 32) (by omega)
    gather_S100000x32_S2000000x1_S2000000x32_1_0_n_n_0_1_132_wf T (KDefs.takeIdx iv) e q
  refine hg.trans (congrArg (fun r : Fin 100000 => T (ix2 r q)) (Fin.ext ?_))
  show min (KDefs.takeIdx iv (ix2 e (0 : Fin 1))).toInt.toNat (100000 - 1) = min (iv (ix1 e)).toInt.toNat 99999
  rw [takeIdx_apply iv e h.1]

end Cert.KernelIdeal.TakeVal

end
-- ==== Proof.LibRowScatter.lean ====
/-
  A row scatter-add read at an index, over the extended reals.

  jax's `segment_sum(upd, ids, N)` of updates `upd : [n, C]` lowers to a `stablehlo.scatter` with an `add` body whose scatter
  indices are the column `[n, 1]` of row numbers: operand axis 0 is the one inserted window axis and the one scattered axis,
  update axis 1 is the one window axis and carries the whole row. Update element `(e, p)` lands on operand element `(r, p)`
  exactly when the `e`-th row number, read as a signed integer and NOT clamped, is `r`; a row number outside `[0, N)` drops
  its row. Result element `(r, q)` is then the operand's plus the sum of `upd (e, q)` over the rows `e` numbered `r`.
-/
import Mathlib.Algebra.BigOperators.Group.Finset.Defs
import Idealize.ShloMosaic.Lib.ValueIdx
import Idealize.ShloMosaic.PureOps.Ideal

noncomputable section

namespace Idealize.ShloMosaic.RowScatter

open Idealize.ShloMosaic Idealize.ShloMosaic.ValueIdx

/-- The dimension numbers of a row scatter into a table `[N, C]` of updates `[n, C]` by a column `[n, 1]` of row numbers;
    their conditions `wf` are decided on a program's literal shapes. -/
abbrev rowDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- On the row axis the window starts at the update row's number, read signed off the column of row numbers: the axis is the
    one the map names, and the scatter-indices index read is the update's row with `0` on the index vector's axis. -/
theorem start_row {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 0 = (idx (ix2 e (0 : Fin 1))).toInt := by
  unfold ScatterDims.start
  rw [dif_pos (show (0 : Fin 2) ∈ (rowDims N C n wf).scatterDimsToOperandDims from List.mem_singleton.mpr rfl)]
  have hsi : (rowDims N C n wf).siIdx (ix2 e p) ⟨List.idxOf (0 : Fin 2) (rowDims N C n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero: the map does not name that axis. -/
theorem start_col {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 1 = 0 := by
  unfold ScatterDims.start
  have h1 : ¬ (1 : Fin 2) ∈ ([0] : List (Fin 2)) := by decide
  rw [dif_neg (show ¬ (1 : Fin 2) ∈ (rowDims N C n wf).scatterDimsToOperandDims from h1)]

/-- The row axis is the inserted window axis: its window coordinate is zero. -/
theorem window_row {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 0 = 0 := by
  unfold ScatterDims.window
  have h0 : ¬ (0 : Fin 2) ∈ ([1] : List (Fin 2)) := by decide
  rw [dif_neg (show ¬ (0 : Fin 2) ∈ (rowDims N C n wf).sKept from h0)]

/-- The column axis is the one kept operand axis: its window coordinate is the update's own column. -/
theorem window_col {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 1 = p.val := by
  unfold ScatterDims.window
  rw [dif_pos (show (1 : Fin 2) ∈ (rowDims N C n wf).sKept from List.mem_singleton.mpr rfl)]
  rfl

/-- Where an update element lands: `(e, p)` lands on `(r, q)` exactly when row `e`'s number, read signed, is `r`, and the
    columns agree. -/
theorem resultIdx?_eq_some_iff {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) (r : Fin N) (q : Fin C) :
    (rowDims N C n wf).resultIdx? (ix2 e p) idx = some (ix2 r q)
      ↔ (idx (ix2 e (0 : Fin 1))).toInt = (r.val : Int) ∧ p = q := by
  have hs0 := start_row wf idx e p
  have hs1 := start_col wf idx e p
  have hw0 := window_row wf e p
  have hw1 := window_col wf e p
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [hs0, hw0] at h0 hb0
      simp only [hs1, hw1] at h1
      change ((idx (ix2 e (0 : Fin 1))).toInt + ((0 : Nat) : Int)).toNat = r.val at h0
      change ((0 : Int) + (p.val : Int)).toNat = q.val at h1
      refine ⟨by omega, Fin.ext (by omega)⟩
    · exact absurd h (by simp)
  · rintro ⟨hr, rfl⟩
    have hb : ∀ a, 0 ≤ (rowDims N C n wf).start (ix2 e p) idx a + (rowDims N C n wf).window (ix2 e p) a
        ∧ (rowDims N C n wf).start (ix2 e p) idx a + (rowDims N C n wf).window (ix2 e p) a
          < (⟨2, ![N, C]⟩ : Shape).size a := by
      intro a
      match a with
      | ⟨0, _⟩ =>
        have hN : r.val < N := r.isLt
        show 0 ≤ (rowDims N C n wf).start (ix2 e p) idx 0 + (rowDims N C n wf).window (ix2 e p) 0
          ∧ (rowDims N C n wf).start (ix2 e p) idx 0 + (rowDims N C n wf).window (ix2 e p) 0 < (N : Int)
        rw [hs0, hw0, hr]; omega
      | ⟨1, _⟩ =>
        have hC : p.val < C := p.isLt
        show 0 ≤ (rowDims N C n wf).start (ix2 e p) idx 1 + (rowDims N C n wf).window (ix2 e p) 1
          ∧ (rowDims N C n wf).start (ix2 e p) idx 1 + (rowDims N C n wf).window (ix2 e p) 1 < (C : Int)
        rw [hs1, hw1]; omega
    rw [dif_pos hb]
    congr 1
    funext a
    refine Fin.ext ?_
    match a with
    | ⟨0, _⟩ =>
      show ((rowDims N C n wf).start (ix2 e p) idx 0 + (rowDims N C n wf).window (ix2 e p) 0).toNat = r.val
      rw [hs0, hw0, hr]; omega
    | ⟨1, _⟩ =>
      show ((rowDims N C n wf).start (ix2 e p) idx 1 + (rowDims N C n wf).window (ix2 e p) 1).toNat = p.val
      rw [hs1, hw1]; omega

/-- THE ROW SCATTER-ADD READ AT `(r, q)`: the operand's element plus the sum, over the update rows `e` whose row number read
    signed is `r`, of the update's element `(e, q)`. The update elements landing on `(r, q)` are exactly the `(e, q)` with
    row `e` numbered `r`, one for each such row: the sum over them is re-indexed by the row. -/
theorem scatterAdd_rows_apply {N C n w : Nat}
    (wf : ScatterDims.WF ⟨2, ![N, C]⟩ ⟨2, ![n, 1]⟩ ⟨2, ![n, C]⟩ [1] [0] [0] 1)
    (x : (⟨2, ![N, C]⟩ : Shape).Idx → EReal) (idx : IVec ⟨2, ![n, 1]⟩ w)
    (upd : (⟨2, ![n, C]⟩ : Shape).Idx → EReal) (r : Fin N) (q : Fin C) :
    Ideal.hostScatterAdd (rowDims N C n wf) x idx upd (ix2 r q)
      = x (ix2 r q) + ∑ e ∈ Finset.univ.filter (fun e : Fin n => (idx (ix2 e (0 : Fin 1))).toInt = (r.val : Int)),
          upd (ix2 e q) := by
  unfold Ideal.hostScatterAdd
  congr 1
  symm
  refine Finset.sum_nbij' (fun e : Fin n => ix2 e q) (fun j => (j 0 : Fin n)) ?_ ?_ ?_ ?_ ?_
  · intro e he
    rw [Finset.mem_filter] at he ⊢
    exact ⟨Finset.mem_univ _, (resultIdx?_eq_some_iff wf idx e q r q).mpr ⟨he.2, rfl⟩⟩
  · intro j hj
    obtain ⟨e, p, rfl⟩ : ∃ (e : Fin n) (p : Fin C), j = ix2 e p := ⟨j 0, j 1, eq_ix2 j⟩
    rw [Finset.mem_filter] at hj
    exact Finset.mem_filter.mpr ⟨Finset.mem_univ e, ((resultIdx?_eq_some_iff wf idx e p r q).mp hj.2).1⟩
  · intro e _
    rfl
  · intro j hj
    obtain ⟨e, p, rfl⟩ : ∃ (e : Fin n) (p : Fin C), j = ix2 e p := ⟨j 0, j 1, eq_ix2 j⟩
    rw [Finset.mem_filter] at hj
    have hpq := ((resultIdx?_eq_some_iff wf idx e p r q).mp hj.2).2
    subst hpq
    rfl
  · intro e _
    rfl

end Idealize.ShloMosaic.RowScatter

end
-- ==== Proof.KVal.lean ====
/-
  The kernel program's two results as index-by-index functions of its arguments.

  The first result is `X · W₇ᵀ`. The second, where every endpoint is a node number: the taken rows are the rows of
  `X · S₃ᵀ` and `X · R₃ᵀ` at the edge's endpoints, the re-laid lane-dense edge projection is `EA · E₃ᵀ`, the composed weights
  are `(W₈ · W₆) · W` entry by entry, and the scatter-add into zeros sums the rows of the edges a node receives: the folded
  sum `kernelAgg`.
-/
import proofs.«427212_j49555332662129_3_alg».proof.Proof.KFold
import proofs.«427212_j49555332662129_3_alg».proof.Proof.KReg
import proofs.«427212_j49555332662129_3_alg».proof.Proof.Edge
import proofs.«427212_j49555332662129_3_alg».proof.Proof.TakeVal
import proofs.«427212_j49555332662129_3_alg».proof.Proof.LibRowScatter
import proofs.«427212_j49555332662129_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen Cert.KernelIdeal.KDefs Cert.KernelIdeal.KStretch Cert.KernelIdeal.KFold
open Cert.KernelIdeal.KReg Cert.MsgPass

/-! ## A 32 × 32 host product at an index -/

theorem lhs32_0 (i : S32x32.Idx) (q : dot_S32x32_S32x32_S32x32_1_0_0_1_n_n.contr.Idx) : (dot_S32x32_S32x32_S32x32_1_0_0_1_n_n.lhsIdx i q 0).val = (i 0).val := by
  unfold DotDims.lhsIdx
  rw [dif_neg (show ¬(0 : Fin S32x32.rank) ∈ dot_S32x32_S32x32_S32x32_1_0_0_1_n_n.lhsBatch by decide), dif_pos (show (0 : Fin S32x32.rank) ∈ dot_S32x32_S32x32_S32x32_1_0_0_1_n_n.lhsNonContracting by decide)]
  rfl
theorem lhs32_1 (i : S32x32.Idx) (q : dot_S32x32_S32x32_S32x32_1_0_0_1_n_n.contr.Idx) : (dot_S32x32_S32x32_S32x32_1_0_0_1_n_n.lhsIdx i q 1).val = (q ⟨0, by decide⟩).val :=
  dot_S32x32_S32x32_S32x32_1_0_0_1_n_n.lhsIdx_val_of_single rfl i q
theorem rhs32_0 (i : S32x32.Idx) (q : dot_S32x32_S32x32_S32x32_1_0_0_1_n_n.contr.Idx) : (dot_S32x32_S32x32_S32x32_1_0_0_1_n_n.rhsIdx i q 0).val = (q ⟨0, by decide⟩).val :=
  dot_S32x32_S32x32_S32x32_1_0_0_1_n_n.rhsIdx_val_of_single rfl i q
theorem rhs32_1 (i : S32x32.Idx) (q : dot_S32x32_S32x32_S32x32_1_0_0_1_n_n.contr.Idx) : (dot_S32x32_S32x32_S32x32_1_0_0_1_n_n.rhsIdx i q 1).val = (i 1).val := by
  unfold DotDims.rhsIdx
  rw [dif_neg (show ¬(1 : Fin S32x32.rank) ∈ dot_S32x32_S32x32_S32x32_1_0_0_1_n_n.rhsBatch by decide), dif_pos (show (1 : Fin S32x32.rank) ∈ dot_S32x32_S32x32_S32x32_1_0_0_1_n_n.rhsNonContracting by decide)]
  rfl

/-- The host's product of two 32 × 32 matrices at `(p, q)`: `∑ k, A[p, k] · B[k, q]`. -/
theorem dot32_apply (A B : FVec Ideal S32x32 .f32) (p q : Fin 32) :
    Host.dotGeneral dot_S32x32_S32x32_S32x32_1_0_0_1_n_n none A B (ix2 p q) = ∑ k : Fin 32, A (ix2 p k) * B (ix2 k q) := by
  simp only [Host.dotGeneral]
  rw [Ideal.dotGeneral_apply, ← Equiv.sum_comp (ValueIdx.contrEquiv1 dot_S32x32_S32x32_S32x32_1_0_0_1_n_n 32 rfl rfl).symm]
  refine Finset.sum_congr rfl fun k _ => ?_
  have hk := ValueIdx.contrEquiv1_symm_val dot_S32x32_S32x32_S32x32_1_0_0_1_n_n 32 rfl rfl k
  have el : dot_S32x32_S32x32_S32x32_1_0_0_1_n_n.lhsIdx (ix2 p q) ((ValueIdx.contrEquiv1 dot_S32x32_S32x32_S32x32_1_0_0_1_n_n 32 rfl rfl).symm k) = ix2 p k := funext fun a => Fin.ext (by
    match a with
    | ⟨0, _⟩ => exact lhs32_0 _ _
    | ⟨1, _⟩ => exact (lhs32_1 _ _).trans hk)
  have er : dot_S32x32_S32x32_S32x32_1_0_0_1_n_n.rhsIdx (ix2 p q) ((ValueIdx.contrEquiv1 dot_S32x32_S32x32_S32x32_1_0_0_1_n_n 32 rfl rfl).symm k) = ix2 k q := funext fun a => Fin.ext (by
    match a with
    | ⟨0, _⟩ => exact (rhs32_0 _ _).trans hk
    | ⟨1, _⟩ => exact rhs32_1 _ _)
  rw [el, er]

/-- The composed weight, entry by entry: `(W₈ · W₆) · M`. -/
theorem comp_eq (W8 W6 M : FVec Ideal S32x32 .f32) : comp (F := Ideal) W8 W6 M = mulN (mulN W8 W6) M := by
  funext i
  obtain ⟨p, q, rfl⟩ : ∃ (p q : Fin 32), i = ix2 p q := ⟨i 0, i 1, eq_ix2 i⟩
  unfold comp
  rw [dot32_apply]
  unfold mulN
  refine Finset.sum_congr rfl fun k _ => ?_
  rw [dot32_apply]

/-! ## The endpoint rows at an index -/

theorem endRow0_apply (EI : IVec S2x2000000 32) (e : Fin 2000000) : endRow0 EI (ix1 e) = EI (ix2 (0 : Fin 2) e) := by
  unfold endRow0
  generalize hy : extractStridedSlice S1x2000000 ![0, 0] EI slices_S2x2000000_S1x2000000_0_0 = y
  rw [shapeCast_apply y shapeCasts_S1x2000000_S2000000 (ix1 e) (ix2 (0 : Fin 1) e)
    (by rewrite [Shape.rowMajor_val_two, Shape.rowMajor_val_one]; show 0 * 2000000 + e.val = e.val; omega)]
  subst hy
  exact extractStridedSlice_apply ![0, 0] EI slices_S2x2000000_S1x2000000_0_0 (ix2 (0 : Fin 1) e) (ix2 (0 : Fin 2) e)
    (fun a => match a with
      | ⟨0, _⟩ => by show (0 : ℕ) = 0 + 0; rfl
      | ⟨1, _⟩ => by show e.val = 0 + e.val; omega)

theorem endRow1_apply (EI : IVec S2x2000000 32) (e : Fin 2000000) : endRow1 EI (ix1 e) = EI (ix2 (1 : Fin 2) e) := by
  unfold endRow1
  generalize hy : extractStridedSlice S1x2000000 ![1, 0] EI slices_S2x2000000_S1x2000000_1_0 = y
  rw [shapeCast_apply y shapeCasts_S1x2000000_S2000000 (ix1 e) (ix2 (0 : Fin 1) e)
    (by rewrite [Shape.rowMajor_val_two, Shape.rowMajor_val_one]; show 0 * 2000000 + e.val = e.val; omega)]
  subst hy
  exact extractStridedSlice_apply ![1, 0] EI slices_S2x2000000_S1x2000000_1_0 (ix2 (0 : Fin 1) e) (ix2 (1 : Fin 2) e)
    (fun a => match a with
      | ⟨0, _⟩ => by show (1 : ℕ) = 1 + 0; rfl
      | ⟨1, _⟩ => by show e.val = 0 + e.val; omega)

/-! ## The scatter-add into zeros at an index -/

/-- The printed scatter-add at `(n, q)`: the operand's element plus the sum of the update's elements `(e, q)` over the rows `e`
    whose row number, read signed, is `n`. -/
theorem scatter_rows (x : S100000x32.Idx → EReal) (idx : IVec S2000000x1 32) (upd : S2000000x32.Idx → EReal)
    (n : Fin 100000) (q : Fin 32) :
    Host.scatterAdd (F := Ideal) (φ := .f32) scatter_S100000x32_S2000000x1_S2000000x32_1_0_0_1 x idx upd (ix2 n q)
      = x (ix2 n q) + ∑ e ∈ Finset.univ.filter (fun e : Fin 2000000 => (idx (ix2 e (0 : Fin 1))).toInt = (n.val : Int)),
          upd (ix2 e q) :=
  RowScatter.scatterAdd_rows_apply (N := 100000) (C := 32) (n := 2000000)
    scatter_S100000x32_S2000000x1_S2000000x32_1_0_0_1_wf x idx upd n q

/-- The zero array at an index. -/
theorem zeros_apply (i : S100000x32.Idx) :
    broadcastInDim S100000x32 ![] bcast_S_S100000x32 (constant (F := Ideal) S_ .f32 0x00000000#32) i = 0 := by
  rw [broadcastInDim_apply _ bcast_S_S100000x32 _ i (fun a => a.elim0) (fun a => a.elim0)]
  exact Ideal.ofBits_zero_f32

/-- The scatter-add of `upd` into zeros by the receiver row, at `(n, q)`: the sum of `upd (e, q)` over the edges node `n` receives. -/
theorem scatter_at (EI : IVec S2x2000000 32) (upd : FVec Ideal S2000000x32 .f32) (n : Fin 100000) (q : Fin 32) :
    Host.scatterAdd (F := Ideal) scatter_S100000x32_S2000000x1_S2000000x32_1_0_0_1
        (broadcastInDim S100000x32 ![] bcast_S_S100000x32 (constant (F := Ideal) S_ .f32 0x00000000#32))
        (broadcastInDim S2000000x1 ![0] bcast_S2000000_S2000000x1_0 (endRow1 EI)) upd (ix2 n q)
      = ∑ e ∈ rows EI n, upd (ix2 e q) := by
  rw [scatter_rows, zeros_apply, zero_add]
  unfold rows
  refine Finset.sum_congr ?_ fun _ _ => rfl
  ext e
  simp only [Finset.mem_filter, Finset.mem_univ, true_and]
  rw [TakeVal.col_apply, endRow1_apply]

/-! ## The two results -/

variable (m : (ℓ : Loc nD τ sig) → Buf (Elt Ideal) ℓ) (ρ : Dev nD → PrngReg)

/-- The second result over NAMED output arrays of the two pallas_calls: whatever the three arrays are shown to be. -/
theorem W9_v25_of (c : Dev nD) (a4 a5 : FVec Ideal S100000x32 .f32) (a2 : FVec Ideal S500000x128 .f32)
    (h4 : (dat0 (V1 m ρ) c).arrAt 4 cfg0.N = a4) (h5 : (dat0 (V1 m ρ) c).arrAt 5 cfg0.N = a5)
    (h2 : (dat1 (V4 m ρ) c).arrAt 2 cfg1.N = a2) :
    W9 m ρ c (Proc.devRef .tc main_v25)
      = Host.scatterAdd (F := Ideal) scatter_S100000x32_S2000000x1_S2000000x32_1_0_0_1
          (broadcastInDim S100000x32 ![] bcast_S_S100000x32 (constant (F := Ideal) S_ .f32 0x00000000#32))
          (broadcastInDim S2000000x1 ![0] bcast_S2000000_S2000000x1_0 (endRow1 (m ((c : Thread nD τ).loc main_arg1))))
          (addf (addf (take (F := Ideal) a4 (endRow0 (m ((c : Thread nD τ).loc main_arg1)))) (shapeCast S2000000x32 a2 shapeCasts_S500000x128_S2000000x32))
            (take (F := Ideal) a5 (endRow1 (m ((c : Thread nD τ).loc main_arg1))))) := by
  subst h4 h5 h2
  exact W9_v25 m ρ c

/-- The node kernel's first output array: `X · S₃ᵀ` with `S₃ = (W₈ · W₆) · W₃`. -/
theorem out4_eq (c : Dev nD) :
    (dat0 (V1 m ρ) c).arrAt 4 cfg0.N
      = mulT (a := 100000) (b := 32) (c := 32) (m ((c : Thread nD τ).loc main_arg0)) (mulN (mulN (m ((c : Thread nD τ).loc main_arg8)) (m ((c : Thread nD τ).loc main_arg6))) (m ((c : Thread nD τ).loc main_arg3))) :=
  (reg0_out4 (V1 m ρ) c).trans
    (congrArg₂ (mulT (a := 100000) (b := 32) (c := 32)) (V1_arg0 m ρ c) ((V1_v5 m ρ c).trans (comp_eq _ _ _)))
/-- Its second output array: `X · R₃ᵀ` with `R₃ = (W₈ · W₆) · W₅`. -/
theorem out5_eq (c : Dev nD) :
    (dat0 (V1 m ρ) c).arrAt 5 cfg0.N
      = mulT (a := 100000) (b := 32) (c := 32) (m ((c : Thread nD τ).loc main_arg0)) (mulN (mulN (m ((c : Thread nD τ).loc main_arg8)) (m ((c : Thread nD τ).loc main_arg6))) (m ((c : Thread nD τ).loc main_arg5))) :=
  (reg0_out5 (V1 m ρ) c).trans
    (congrArg₂ (mulT (a := 100000) (b := 32) (c := 32)) (V1_arg0 m ρ c) ((V1_v7 m ρ c).trans (comp_eq _ _ _)))
/-- Its third output array: `X · W₇ᵀ`. -/
theorem out6_eq (c : Dev nD) :
    (dat0 (V1 m ρ) c).arrAt 6 cfg0.N = mulT (a := 100000) (b := 32) (c := 32) (m ((c : Thread nD τ).loc main_arg0)) (m ((c : Thread nD τ).loc main_arg7)) :=
  (reg0_out6 (V1 m ρ) c).trans (congrArg₂ (mulT (a := 100000) (b := 32) (c := 32)) (V1_arg0 m ρ c) (V1_arg7 m ρ c))
/-- The edge kernel's output array: the re-laid edge features through `kron(eye(4), E₃)ᵀ`, `E₃ = (W₈ · W₆) · W₄`. -/
theorem out2_eq (c : Dev nD) :
    (dat1 (V4 m ρ) c).arrAt 2 cfg1.N
      = mulT (a := 500000) (b := 128) (c := 128) (shapeCast S500000x128 (m ((c : Thread nD τ).loc main_arg2)) shapeCasts_S2000000x32_S500000x128)
          (kronEye (F := Ideal) (mulN (mulN (m ((c : Thread nD τ).loc main_arg8)) (m ((c : Thread nD τ).loc main_arg6))) (m ((c : Thread nD τ).loc main_arg4)))) :=
  (reg1_out2 (V4 m ρ) c).trans
    (congrArg₂ (mulT (a := 500000) (b := 128) (c := 128)) (V4_v9 m ρ c)
      ((V4_v16 m ρ c).trans (congrArg (kronEye (F := Ideal)) (comp_eq _ _ _))))

/-- The first result: the node features through `W₇`. -/
theorem kernel_node (c : Dev nD) :
    W9 m ρ c (Proc.devRef .tc main_v8_2) = mulT (a := 100000) (b := 32) (c := 32) (m ((c : Thread nD τ).loc main_arg0)) (m ((c : Thread nD τ).loc main_arg7)) :=
  (W9_v8_2 m ρ c).trans (out6_eq m ρ c)

/-- The sum the scatter-add makes of the three per-edge terms, where the endpoints are node numbers. -/
theorem agg_at (X : FVec Ideal S100000x32 .f32) (EI : IVec S2x2000000 32) (EA : FVec Ideal S2000000x32 .f32)
    (S3 E3 R3 : FVec Ideal S32x32 .f32) (h : InRange EI) (n : Fin 100000) (q : Fin 32) :
    Host.scatterAdd (F := Ideal) scatter_S100000x32_S2000000x1_S2000000x32_1_0_0_1
        (broadcastInDim S100000x32 ![] bcast_S_S100000x32 (constant (F := Ideal) S_ .f32 0x00000000#32))
        (broadcastInDim S2000000x1 ![0] bcast_S2000000_S2000000x1_0 (endRow1 EI))
        (addf (addf (take (F := Ideal) (mulT (a := 100000) (b := 32) (c := 32) X S3) (endRow0 EI))
            (shapeCast S2000000x32
              (mulT (a := 500000) (b := 128) (c := 128) (shapeCast S500000x128 EA shapeCasts_S2000000x32_S500000x128) (kronEye (F := Ideal) E3))
              shapeCasts_S500000x128_S2000000x32))
          (take (F := Ideal) (mulT (a := 100000) (b := 32) (c := 32) X R3) (endRow1 EI))) (ix2 n q)
      = ∑ e ∈ rows EI n,
          ((mulT (a := 100000) (b := 32) (c := 32) X S3 (ix2 (row EI 0 e) q) + mulT (a := 2000000) (b := 32) (c := 32) EA E3 (ix2 e q))
            + mulT (a := 100000) (b := 32) (c := 32) X R3 (ix2 (row EI 1 e) q)) := by
  rw [scatter_at, Edge.edge_eq]
  refine Finset.sum_congr rfl fun e _ => ?_
  have h0 := h (ix2 (0 : Fin 2) e)
  have h1 := h (ix2 (1 : Fin 2) e)
  rw [addf_apply, addf_apply,
    TakeVal.take_apply _ _ e q (by rw [endRow0_apply]; exact h0),
    TakeVal.take_apply _ _ e q (by rw [endRow1_apply]; exact h1)]
  simp only [endRow0_apply, endRow1_apply]
  rfl

/-- The second result, where every endpoint is a node number: the folded sum. -/
theorem kernel_agg (c : Dev nD) (h : InRange (m ((c : Thread nD τ).loc main_arg1))) :
    W9 m ρ c (Proc.devRef .tc main_v25)
      = kernelAgg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  refine (W9_v25_of m ρ c _ _ _ (out4_eq m ρ c) (out5_eq m ρ c) (out2_eq m ρ c)).trans ?_
  funext i
  obtain ⟨n, q, rfl⟩ : ∃ (n : Fin 100000) (q : Fin 32), i = ix2 n q := ⟨i 0, i 1, eq_ix2 i⟩
  exact agg_at _ _ _ _ _ _ h n q

end Cert.KernelIdeal.KVal

end
-- ==== Proof.RefVal.lean ====
/-
  The reference's two results as index-by-index functions of its arguments.

  The first result is `X · W₇ᵀ`. The second: per edge `e` the gathered source row of `X · W₃ᵀ`, plus the edge's own row of
  `EA · W₄ᵀ`, plus the gathered receiver row of `X · W₅ᵀ`, through `W₆ᵀ`; the rows of the edges a node receives summed (a
  scatter-add into zeros: an edge lands on the node its receiver names); then through `W₈ᵀ`. Where the endpoints are node
  numbers jnp's index normalisation (a negative index has the height added) changes nothing and the gather's clamp is
  the clamp of `row`.
-/
import proofs.«427212_j49555332662129_3_alg».proof.Proof.Gen.ReferenceIdeal.Read
import proofs.«427212_j49555332662129_3_alg».proof.Proof.Spec
import proofs.«427212_j49555332662129_3_alg».proof.Proof.LibRowGather
import proofs.«427212_j49555332662129_3_alg».proof.Proof.LibRowScatter
import Idealize.ShloMosaic.Lib.StableHlo.Predicate

noncomputable section

namespace Cert.ReferenceIdeal.RefVal

open Idealize.ShloMosaic Idealize.ShloMosaic.ValueIdx
open Cert.ReferenceIdeal Cert.ReferenceIdeal.Gen Cert.ReferenceIdeal.Read Cert.MsgPass

/-! ## The four products with a transposed matrix

Each contracts the left operand's column with the transposed matrix's row, that is with the matrix's column: entry
`(n, q)` is `∑ k, A[n, k] · W[q, k]`. -/

theorem v5_eq (x0 : FVec Ideal S100000x32 .f32) (x3 : FVec Ideal S32x32 .f32) :
    val_main_v5 (F := Ideal) x0 x3 = mulT (a := 100000) (b := 32) (c := 32) x0 x3 := by
  funext i
  obtain ⟨n, q, rfl⟩ : ∃ (n : Fin 100000) (q : Fin 32), i = ix2 n q := ⟨i 0, i 1, eq_ix2 i⟩
  rw [val_main_v5_apply]
  unfold mulT
  refine Finset.sum_congr rfl fun k _ => ?_
  rw [val_main_v4_apply]
  have e1 : lidx_main_v5 (ix2 n q) k = ix2 n k :=
    funext fun a => Fin.ext (by match a with | ⟨0, _⟩ => rfl | ⟨1, _⟩ => rfl)
  have e2 : idx_main_v4 (ridx_main_v5 (ix2 n q) k) = ix2 q k :=
    funext fun a => Fin.ext (by match a with | ⟨0, _⟩ => rfl | ⟨1, _⟩ => rfl)
  rw [e1, e2]

theorem v7_eq (x2 : FVec Ideal S2000000x32 .f32) (x4 : FVec Ideal S32x32 .f32) :
    val_main_v7 (F := Ideal) x2 x4 = mulT (a := 2000000) (b := 32) (c := 32) x2 x4 := by
  funext i
  obtain ⟨n, q, rfl⟩ : ∃ (n : Fin 2000000) (q : Fin 32), i = ix2 n q := ⟨i 0, i 1, eq_ix2 i⟩
  rw [val_main_v7_apply]
  unfold mulT
  refine Finset.sum_congr rfl fun k _ => ?_
  rw [val_main_v6_apply]
  have e1 : lidx_main_v7 (ix2 n q) k = ix2 n k :=
    funext fun a => Fin.ext (by match a with | ⟨0, _⟩ => rfl | ⟨1, _⟩ => rfl)
  have e2 : idx_main_v6 (ridx_main_v7 (ix2 n q) k) = ix2 q k :=
    funext fun a => Fin.ext (by match a with | ⟨0, _⟩ => rfl | ⟨1, _⟩ => rfl)
  rw [e1, e2]

theorem v9_eq (x0 : FVec Ideal S100000x32 .f32) (x5 : FVec Ideal S32x32 .f32) :
    val_main_v9 (F := Ideal) x0 x5 = mulT (a := 100000) (b := 32) (c := 32) x0 x5 := by
  funext i
  obtain ⟨n, q, rfl⟩ : ∃ (n : Fin 100000) (q : Fin 32), i = ix2 n q := ⟨i 0, i 1, eq_ix2 i⟩
  rw [val_main_v9_apply]
  unfold mulT
  refine Finset.sum_congr rfl fun k _ => ?_
  rw [val_main_v8_apply]
  have e1 : lidx_main_v9 (ix2 n q) k = ix2 n k :=
    funext fun a => Fin.ext (by match a with | ⟨0, _⟩ => rfl | ⟨1, _⟩ => rfl)
  have e2 : idx_main_v8 (ridx_main_v9 (ix2 n q) k) = ix2 q k :=
    funext fun a => Fin.ext (by match a with | ⟨0, _⟩ => rfl | ⟨1, _⟩ => rfl)
  rw [e1, e2]

/-- The first result: the node features through `W₇`. -/
theorem ref_node (x0 : FVec Ideal S100000x32 .f32) (x7 : FVec Ideal S32x32 .f32) :
    val_main_v29 (F := Ideal) x0 x7 = mulT (a := 100000) (b := 32) (c := 32) x0 x7 := by
  funext i
  obtain ⟨n, q, rfl⟩ : ∃ (n : Fin 100000) (q : Fin 32), i = ix2 n q := ⟨i 0, i 1, eq_ix2 i⟩
  rw [val_main_v29_apply]
  unfold mulT
  refine Finset.sum_congr rfl fun k _ => ?_
  rw [val_main_v28_apply]
  have e1 : lidx_main_v29 (ix2 n q) k = ix2 n k :=
    funext fun a => Fin.ext (by match a with | ⟨0, _⟩ => rfl | ⟨1, _⟩ => rfl)
  have e2 : idx_main_v28 (ridx_main_v29 (ix2 n q) k) = ix2 q k :=
    funext fun a => Fin.ext (by match a with | ⟨0, _⟩ => rfl | ⟨1, _⟩ => rfl)
  rw [e1, e2]

/-! ## The endpoints' rows

Row `s` of the endpoint pairs is cut out as a `[1, 2000000]` slice and flattened; entry `e` of the flat vector is entry
`(s, e)` of the pairs. -/

theorem v1_at (x1 : IVec S2x2000000 32) (e : Fin 2000000) :
    val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

theorem v3_at (x1 : IVec S2x2000000 32) (e : Fin 2000000) :
    val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- A non-negative signed word is not below zero, so the normalisation "add the height to a negative index" keeps it. -/
theorem norm_eq (x : BitVec 32) (h0 : 0 ≤ x.toInt) :
    Scalar.select (IntOp.cmpi .slt x 0#32) (IntOp.addi x 100000#32) x = x := by
  have hlt : x.slt 0#32 = false := by
    unfold BitVec.slt
    exact decide_eq_false (by rw [show (0#32 : BitVec 32).toInt = 0 from by decide]; omega)
  have hc : IntOp.cmpi .slt x 0#32 = 0#1 := by
    show BitVec.ofBool (x.slt 0#32) = 0#1
    rw [hlt]
    rfl
  unfold Scalar.select
  rw [hc]
  exact if_neg (by decide)

/-- The column of normalised source numbers, where they are node numbers: the sources themselves. -/
theorem v15_at (x1 : IVec S2x2000000 32) (h : InRange x1) (e : Fin 2000000) :
    val_main_v15 (F := Ideal) x1 (ix2 e (0 : Fin 1)) = x1 (ix2 (0 : Fin 2) e) := by
  have ei : idx_main_v15 (ix2 e (0 : Fin 1)) = ix1 e :=
    funext fun a => Fin.ext (by match a with | ⟨0, _⟩ => rfl)
  rw [val_main_v15_apply, ei, val_main_v14_apply, val_main_v11_apply, val_main_v13_apply, val_main_v10_apply,
    val_main_v12_apply, val_main_c_apply, val_main_c_0_apply, v1_at]
  exact norm_eq _ (h _).1

/-- The column of normalised receiver numbers, where they are node numbers: the receivers themselves. -/
theorem v23_at (x1 : IVec S2x2000000 32) (h : InRange x1) (e : Fin 2000000) :
    val_main_v23 (F := Ideal) x1 (ix2 e (0 : Fin 1)) = x1 (ix2 (1 : Fin 2) e) := by
  have ei : idx_main_v23 (ix2 e (0 : Fin 1)) = ix1 e :=
    funext fun a => Fin.ext (by match a with | ⟨0, _⟩ => rfl)
  rw [val_main_v23_apply, ei, val_main_v22_apply, val_main_v19_apply, val_main_v21_apply, val_main_v18_apply,
    val_main_v20_apply, val_main_c_1_apply, val_main_c_2_apply, v3_at]
  exact norm_eq _ (h _).1

/-- The column of receiver numbers the scatter-add reads (not normalised). -/
theorem v31_at (x1 : IVec S2x2000000 32) (e : Fin 2000000) :
    val_main_v31 (F := Ideal) x1 (ix2 e (0 : Fin 1)) = x1 (ix2 (1 : Fin 2) e) := by
  have ei : idx_main_v31 (ix2 e (0 : Fin 1)) = ix1 e :=
    funext fun a => Fin.ext (by match a with | ⟨0, _⟩ => rfl)
  rw [val_main_v31_apply, ei, v3_at]

/-! ## The two gathers and the scatter-add

The printed dimension records are the row gather's and the row scatter's. -/

theorem gather_at {α : Type} (T : S100000x32.Idx → α) (idx : IVec S2000000x1 32) (e : Fin 2000000) (l : Fin 32) :
    Host.gather gather_S100000x32_S2000000x1_S2000000x32_1_0_n_n_0_1_132 T idx (ix2 e l)
      = T (ix2 (⟨min (idx (ix2 e (0 : Fin 1))).toInt.toNat 99999, by omega⟩ : Fin 100000) l) :=
  RowGather.gather_rows_apply (N := 100000) (C := 32) (n := 2000000) (by decide)
    gather_S100000x32_S2000000x1_S2000000x32_1_0_n_n_0_1_132_wf T idx e l

theorem scatter_at (x : S100000x32.Idx → EReal) (idx : IVec S2000000x1 32) (upd : S2000000x32.Idx → EReal)
    (n : Fin 100000) (k : Fin 32) :
    Host.scatterAdd (F := Ideal) (φ := .f32) scatter_S100000x32_S2000000x1_S2000000x32_1_0_0_1 x idx upd (ix2 n k)
      = x (ix2 n k) + ∑ e ∈ Finset.univ.filter (fun e : Fin 2000000 => (idx (ix2 e (0 : Fin 1))).toInt = (n.val : Int)),
          upd (ix2 e k) :=
  RowScatter.scatterAdd_rows_apply (N := 100000) (C := 32) (n := 2000000)
    scatter_S100000x32_S2000000x1_S2000000x32_1_0_0_1_wf x idx upd n k

/-- The gathered source rows of `X · W₃ᵀ`: edge `e` reads the row of its source. -/
theorem v16_at (x0 : FVec Ideal S100000x32 .f32) (x1 : IVec S2x2000000 32) (x3 : FVec Ideal S32x32 .f32)
    (h : InRange x1) (e : Fin 2000000) (l : Fin 32) :
    val_main_v16 (F := Ideal) x0 x1 x3 (ix2 e l)
      = mulT (a := 100000) (b := 32) (c := 32) x0 x3 (ix2 (row x1 0 e) l) := by
  unfold val_main_v16
  rw [gather_at, v5_eq]
  refine congrArg (fun r : Fin 100000 => mulT (a := 100000) (b := 32) (c := 32) x0 x3 (ix2 r l)) (Fin.ext ?_)
  show min (val_main_v15 (F := Ideal) x1 (ix2 e (0 : Fin 1))).toInt.toNat 99999 = min (x1 (ix2 (0 : Fin 2) e)).toInt.toNat 99999
  rw [v15_at x1 h]

/-- The gathered receiver rows of `X · W₅ᵀ`: edge `e` reads the row of its receiver. -/
theorem v24_at (x0 : FVec Ideal S100000x32 .f32) (x1 : IVec S2x2000000 32) (x5 : FVec Ideal S32x32 .f32)
    (h : InRange x1) (e : Fin 2000000) (l : Fin 32) :
    val_main_v24 (F := Ideal) x0 x1 x5 (ix2 e l)
      = mulT (a := 100000) (b := 32) (c := 32) x0 x5 (ix2 (row x1 1 e) l) := by
  unfold val_main_v24
  rw [gather_at, v9_eq]
  refine congrArg (fun r : Fin 100000 => mulT (a := 100000) (b := 32) (c := 32) x0 x5 (ix2 r l)) (Fin.ext ?_)
  show min (val_main_v23 (F := Ideal) x1 (ix2 e (0 : Fin 1))).toInt.toNat 99999 = min (x1 (ix2 (1 : Fin 2) e)).toInt.toNat 99999
  rw [v23_at x1 h]

/-- The edge messages: the summed first layer through `W₆ᵀ`. -/
theorem v27_at (x0 : FVec Ideal S100000x32 .f32) (x1 : IVec S2x2000000 32) (x2 : FVec Ideal S2000000x32 .f32)
    (x3 x4 x5 x6 : FVec Ideal S32x32 .f32) (h : InRange x1) (e : Fin 2000000) (k : Fin 32) :
    val_main_v27 (F := Ideal) x0 x1 x2 x3 x4 x5 x6 (ix2 e k)
      = ∑ l : Fin 32,
          ((mulT (a := 100000) (b := 32) (c := 32) x0 x3 (ix2 (row x1 0 e) l)
              + mulT (a := 2000000) (b := 32) (c := 32) x2 x4 (ix2 e l))
            + mulT (a := 100000) (b := 32) (c := 32) x0 x5 (ix2 (row x1 1 e) l)) * x6 (ix2 k l) := by
  rw [val_main_v27_apply]
  refine Finset.sum_congr rfl fun l _ => ?_
  have e1 : lidx_main_v27 (ix2 e k) l = ix2 e l :=
    funext fun a => Fin.ext (by match a with | ⟨0, _⟩ => rfl | ⟨1, _⟩ => rfl)
  have e2 : idx_main_v26 (ridx_main_v27 (ix2 e k) l) = ix2 k l :=
    funext fun a => Fin.ext (by match a with | ⟨0, _⟩ => rfl | ⟨1, _⟩ => rfl)
  rw [val_main_v26_apply, e1, e2, val_main_v25_apply, val_main_v17_apply, v16_at x0 x1 x3 h, v24_at x0 x1 x5 h, v7_eq]
  rfl

/-- The summed messages: node `n` holds the sum of the messages of the edges it receives (the zero it is added to drops). -/
theorem v32_at (x0 : FVec Ideal S100000x32 .f32) (x1 : IVec S2x2000000 32) (x2 : FVec Ideal S2000000x32 .f32)
    (x3 x4 x5 x6 : FVec Ideal S32x32 .f32) (n : Fin 100000) (k : Fin 32) :
    val_main_v32 (F := Ideal) x0 x1 x2 x3 x4 x5 x6 (ix2 n k)
      = ∑ e ∈ rows x1 n, val_main_v27 (F := Ideal) x0 x1 x2 x3 x4 x5 x6 (ix2 e k) := by
  unfold val_main_v32
  generalize val_main_v27 (F := Ideal) x0 x1 x2 x3 x4 x5 x6 = upd
  rw [scatter_at, val_main_v30_apply, val_main_cst_apply, Ideal.ofBits_def, Ideal.ofBits_zero_f32, zero_add]
  unfold rows
  exact Finset.sum_congr (Finset.filter_congr fun e _ => by rw [v31_at]) (fun _ _ => rfl)

/-- The second result, where every endpoint is a node number: the layered sum `refAgg`. -/
theorem ref_agg (x0 : FVec Ideal S100000x32 .f32) (x1 : IVec S2x2000000 32) (x2 : FVec Ideal S2000000x32 .f32)
    (x3 x4 x5 x6 x8 : FVec Ideal S32x32 .f32) (h : InRange x1) :
    val_main_v34 (F := Ideal) x0 x1 x2 x3 x4 x5 x6 x8 = refAgg x0 x1 x2 x3 x4 x5 x6 x8 := by
  funext i
  obtain ⟨n, q, rfl⟩ : ∃ (n : Fin 100000) (q : Fin 32), i = ix2 n q := ⟨i 0, i 1, eq_ix2 i⟩
  rw [val_main_v34_apply]
  unfold refAgg
  refine Finset.sum_congr rfl fun k _ => ?_
  have e1 : lidx_main_v34 (ix2 n q) k = ix2 n k :=
    funext fun a => Fin.ext (by match a with | ⟨0, _⟩ => rfl | ⟨1, _⟩ => rfl)
  have e2 : idx_main_v33 (ridx_main_v34 (ix2 n q) k) = ix2 q k :=
    funext fun a => Fin.ext (by match a with | ⟨0, _⟩ => rfl | ⟨1, _⟩ => rfl)
  rw [val_main_v33_apply, e1, e2, v32_at]
  refine congrArg (fun s : EReal => s * x8 (ix2 q k)) ?_
  exact Finset.sum_congr rfl fun e _ => v27_at x0 x1 x2 x3 x4 x5 x6 h e k

end Cert.ReferenceIdeal.RefVal

end
-- ==== Proof.Bridge.lean ====
/-
  The folded and the layered message-passing sums agree on real entries.

  Over the reals this is linearity of finite sums: with `C = W₈ · W₆`,
  `∑ₖ (∑ₗ m[l] · W₆[k, l]) · W₈[q, k] = ∑ₗ m[l] · C[q, l]` for any vector `m`, and for `m[l] = ∑ₚ y[p] · W[l, p]`
  the right side is `∑ₚ y[p] · (∑ₗ C[q, l] · W[l, p])`. Summing over the received edges and over the three first-layer
  terms gives the identity. Over the extended reals every term is the coercion of a real, and the coercion commutes with
  finite sums, sums of two and products, so the identity transfers.
-/
import proofs.«427212_j49555332662129_3_alg».proof.Proof.Spec
import Mathlib.Tactic.Ring
import Mathlib.Algebra.BigOperators.Ring.Finset
import Mathlib.Data.EReal.Basic

noncomputable section

namespace Cert.MsgPass

open Idealize.ShloMosaic Idealize.ShloMosaic.ValueIdx

/-! ### The identity over the reals -/

/-- Two maps applied one after the other are the composite map: `∑ₖ (∑ₗ m[l] · W₆[k, l]) · W₈[q, k] = ∑ₗ m[l] · (W₈ · W₆)[q, l]`. -/
theorem real_two_maps {b : Nat} (m : Fin b → ℝ) (w6 w8 : Fin b → Fin b → ℝ) (q : Fin b) :
    ∑ k : Fin b, (∑ l : Fin b, m l * w6 k l) * w8 q k = ∑ l : Fin b, m l * ∑ r : Fin b, w8 q r * w6 r l := by
  simp only [Finset.sum_mul, Finset.mul_sum]
  rw [Finset.sum_comm]
  refine Finset.sum_congr rfl fun l _ => Finset.sum_congr rfl fun k _ => ?_
  ring

/-- A linear form of a mapped vector is the form pulled back along the map:
    `∑ₗ (∑ₚ y[p] · W[l, p]) · c[l] = ∑ₚ y[p] · (∑ₗ c[l] · W[l, p])`. -/
theorem real_pull_back {b : Nat} (y : Fin b → ℝ) (w : Fin b → Fin b → ℝ) (c : Fin b → ℝ) :
    ∑ l : Fin b, (∑ p : Fin b, y p * w l p) * c l = ∑ p : Fin b, y p * ∑ l : Fin b, c l * w l p := by
  simp only [Finset.sum_mul, Finset.mul_sum]
  rw [Finset.sum_comm]
  refine Finset.sum_congr rfl fun p _ => Finset.sum_congr rfl fun l _ => ?_
  ring

/-- One edge's message: the three first-layer terms through `W₆ᵀ` and `W₈ᵀ` are the three terms through the folded maps. -/
theorem real_edge {b : Nat} (y3 y4 y5 : Fin b → ℝ) (w3 w4 w5 w6 w8 : Fin b → Fin b → ℝ) (q : Fin b) :
    ((∑ k : Fin b, y3 k * ∑ p : Fin b, (∑ r : Fin b, w8 q r * w6 r p) * w3 p k)
      + ∑ k : Fin b, y4 k * ∑ p : Fin b, (∑ r : Fin b, w8 q r * w6 r p) * w4 p k)
      + (∑ k : Fin b, y5 k * ∑ p : Fin b, (∑ r : Fin b, w8 q r * w6 r p) * w5 p k)
    = ∑ k : Fin b, (∑ l : Fin b,
        (((∑ p : Fin b, y3 p * w3 l p) + ∑ p : Fin b, y4 p * w4 l p) + ∑ p : Fin b, y5 p * w5 l p) * w6 k l) * w8 q k := by
  rw [real_two_maps (fun l => ((∑ p : Fin b, y3 p * w3 l p) + ∑ p : Fin b, y4 p * w4 l p) + ∑ p : Fin b, y5 p * w5 l p) w6 w8 q]
  simp only [add_mul, Finset.sum_add_distrib]
  rw [real_pull_back y3 w3, real_pull_back y4 w4, real_pull_back y5 w5]

/-- The identity for one node and one output column: `R` the node's received edges, `u`, `v` the edges' endpoints. -/
theorem real_agg {N E b : Nat} (x : Fin N → Fin b → ℝ) (ea : Fin E → Fin b → ℝ) (w3 w4 w5 w6 w8 : Fin b → Fin b → ℝ)
    (R : Finset (Fin E)) (u v : Fin E → Fin N) (q : Fin b) :
    ∑ e ∈ R,
      (((∑ k : Fin b, x (u e) k * ∑ p : Fin b, (∑ r : Fin b, w8 q r * w6 r p) * w3 p k)
        + ∑ k : Fin b, ea e k * ∑ p : Fin b, (∑ r : Fin b, w8 q r * w6 r p) * w4 p k)
        + (∑ k : Fin b, x (v e) k * ∑ p : Fin b, (∑ r : Fin b, w8 q r * w6 r p) * w5 p k))
    = ∑ k : Fin b, (∑ e ∈ R, ∑ l : Fin b,
        (((∑ p : Fin b, x (u e) p * w3 l p) + ∑ p : Fin b, ea e p * w4 l p) + ∑ p : Fin b, x (v e) p * w5 l p) * w6 k l)
          * w8 q k := by
  rw [Finset.sum_congr rfl fun e _ => real_edge (x (u e)) (ea e) (x (v e)) w3 w4 w5 w6 w8 q, Finset.sum_comm]
  refine Finset.sum_congr rfl fun k _ => ?_
  rw [Finset.sum_mul]

/-! ### The coercion of the reals into the extended reals -/

/-- The coercion commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `A · Bᵀ` over the reals. -/
def mulTR {a b c : Nat} (A : (⟨2, ![a, b]⟩ : Shape).Idx → ℝ) (B : (⟨2, ![c, b]⟩ : Shape).Idx → ℝ) :
    (⟨2, ![a, c]⟩ : Shape).Idx → ℝ :=
  fun i => ∑ k : Fin b, A (ix2 (i 0 : Fin a) k) * B (ix2 (i 1 : Fin c) k)

/-- `A · B` over the reals. -/
def mulNR (A B : SW.Idx → ℝ) : SW.Idx → ℝ :=
  fun i => ∑ k : Fin 32, A (ix2 (i 0 : Fin 32) k) * B (ix2 k (i 1 : Fin 32))

/-- `A · Bᵀ` of real entries is real, entry by entry. -/
theorem mulT_coe {a b c : Nat} (A : (⟨2, ![a, b]⟩ : Shape).Idx → ℝ) (B : (⟨2, ![c, b]⟩ : Shape).Idx → ℝ) :
    mulT (fun i => (A i : EReal)) (fun i => (B i : EReal)) = fun i => ((mulTR A B i : ℝ) : EReal) := by
  funext i
  simp only [mulT, mulTR, coe_finset_sum, EReal.coe_mul]

/-- `A · B` of real entries is real, entry by entry. -/
theorem mulN_coe (A B : SW.Idx → ℝ) :
    mulN (fun i => (A i : EReal)) (fun i => (B i : EReal)) = fun i => ((mulNR A B i : ℝ) : EReal) := by
  funext i
  simp only [mulN, mulNR, coe_finset_sum, EReal.coe_mul]

/-- An array of real entries is the coercion of a real array. -/
theorem IsReal.exists_coe {s : Shape} {A : s.Idx → EReal} (h : IsReal A) :
    ∃ a : s.Idx → ℝ, A = fun i => (a i : EReal) := by
  choose a ha using h
  exact ⟨a, funext ha⟩

/-! ### The two sums agree -/

/-- Linearity: with every entry a real number, applying `W₆ᵀ` then `W₈ᵀ` after summing is summing the messages already
    mapped by the composite `(W₈ · W₆) · W`. -/
theorem agg_eq (X : SN.Idx → EReal) (EI : IVec SI 32) (EA : SE.Idx → EReal) (W3 W4 W5 W6 W8 : SW.Idx → EReal)
    (hX : IsReal X) (hEA : IsReal EA) (h3 : IsReal W3) (h4 : IsReal W4) (h5 : IsReal W5) (h6 : IsReal W6) (h8 : IsReal W8) :
    kernelAgg X EI EA W3 W4 W5 W6 W8 = refAgg X EI EA W3 W4 W5 W6 W8 := by
  obtain ⟨x, rfl⟩ := hX.exists_coe
  obtain ⟨ea, rfl⟩ := hEA.exists_coe
  obtain ⟨w3, rfl⟩ := h3.exists_coe
  obtain ⟨w4, rfl⟩ := h4.exists_coe
  obtain ⟨w5, rfl⟩ := h5.exists_coe
  obtain ⟨w6, rfl⟩ := h6.exists_coe
  obtain ⟨w8, rfl⟩ := h8.exists_coe
  funext i
  obtain ⟨n, q, rfl⟩ : ∃ (n : Fin 100000) (q : Fin 32), i = ix2 n q := ⟨i 0, i 1, eq_ix2 i⟩
  unfold kernelAgg refAgg
  simp only [mulN_coe, mulT_coe]
  simp only [← EReal.coe_add, ← EReal.coe_mul, ← coe_finset_sum]
  refine congrArg (fun r : ℝ => (r : EReal)) ?_
  exact real_agg (fun n k => x (ix2 n k)) (fun e k => ea (ix2 e k))
    (fun a b => w3 (ix2 a b)) (fun a b => w4 (ix2 a b)) (fun a b => w5 (ix2 a b)) (fun a b => w6 (ix2 a b))
    (fun a b => w8 (ix2 a b)) (rows EI n) (row EI 0) (row EI 1) q

end Cert.MsgPass

end
-- ==== Proof.PreFacts.lean ====
/-
  What the precondition says of the argument arrays: every float entry is a real number, and every edge endpoint is a
  node number.

  The precondition is one truth value: for each float array the conjunction over all entries of `|x| < +∞`, for the endpoint
  array the conjunctions of `0 ≤ w` and of `w < 100000` (signed), all joined by `and`. A conjunction of truth values that is
  one had every conjunct one; a conjunction over all entries that is one had a one at every entry; and `|x| < +∞` holds of
  an extended real exactly when it is neither infinity, that is, when it is a real number.
-/
import proofs.«427212_j49555332662129_3_alg».proof.Defs
import proofs.«427212_j49555332662129_3_alg».proof.Proof.Gen.KernelIdeal
import proofs.«427212_j49555332662129_3_alg».proof.Proof.Gen.Pre_finite_inputs
import proofs.«427212_j49555332662129_3_alg».proof.Proof.Spec
import Idealize.ShloMosaic.Lib.ReduceAll

noncomputable section

namespace Cert.KernelIdeal.PreFacts

open Idealize.ShloMosaic Idealize.ShloMosaic.ValueIdx Idealize.SL.Sem Cert.KernelIdeal Cert.MsgPass

/-- The scalar shape has one index. -/
instance : Subsingleton Cert.Pre_finite_inputs.S_.Idx := ⟨fun a b => funext fun d => d.elim0⟩

/-- The pattern `0x7F800000` denotes `+∞`. -/
theorem top_pat : Ideal.ofBits .f32 0x7F800000#32 = (⊤ : EReal) := by simp [Ideal.ofBits, Ideal.ieee]

/-- A truth value made from a Boolean is one exactly when the Boolean is true. -/
theorem ofBool_eq_one (b : Bool) : BitVec.ofBool b = 1#1 ↔ b = true := by cases b <;> decide

/-- `|x| < +∞` excludes both infinities: `x` is a real number. -/
theorem real_of_abs_lt (x : EReal) (h : Ideal.cmp .olt (max x (-x)) (Ideal.ofBits .f32 0x7F800000#32) = 1#1) :
    ∃ r : ℝ, x = (r : EReal) := by
  rw [top_pat] at h
  unfold Ideal.cmp at h
  rw [ofBool_eq_one] at h
  simp only [decide_eq_true_eq] at h
  induction x using EReal.rec with
  | bot => simp at h
  | coe r => exact ⟨r, rfl⟩
  | top => simp at h

/-- `w ≥ 0` and `w < 100000` as signed comparisons that came out one: `w` read as a signed integer lies in `[0, 100000)`. -/
theorem range_of_cmpi (w : BitVec 32) (h0 : IntOp.cmpi .sge w (0#32) = 1#1) (h1 : IntOp.cmpi .slt w (100000#32) = 1#1) :
    0 ≤ w.toInt ∧ w.toInt < 100000 := by
  unfold IntOp.cmpi at h0 h1
  rw [ofBool_eq_one] at h0 h1
  simp only [BitVec.sle_iff_toInt_le, BitVec.slt_iff_toInt_lt] at h0 h1
  exact ⟨by simpa using h0, by simpa using h1⟩

/-- One float array's conjunct: the conjunction over all entries of `|x| < +∞` is one, so every entry is a real number. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1) :
    IsReal (s := s) x :=
  fun i => real_of_abs_lt (x i) (Host.reduce_andi_all _ _ hr hu ix0 e i)

/-- The endpoint array's two conjuncts: every entry is at least 0 and below 100000, signed. -/
theorem inRange_of_all {axes : List (Fin SI.rank)} (x : IVec SI 32)
    (hb : Cert.Pre_finite_inputs.S_.BroadcastsInDim SI (![] : Fin 0 → Fin SI.rank))
    (hr : SI.ReducesTo axes Cert.Pre_finite_inputs.S_) (hu : 0 < Cert.Pre_finite_inputs.S_.numel)
    (e0 : Host.reduce IntOp.andi
          (cmpi .sge x (broadcastInDim SI ![] hb (constantI Cert.Pre_finite_inputs.S_ 32 0#32)))
          (constantI Cert.Pre_finite_inputs.S_ 1 1#1) hr hu ix0 = 1#1)
    (e1 : Host.reduce IntOp.andi
          (cmpi .slt x (broadcastInDim SI ![] hb (constantI Cert.Pre_finite_inputs.S_ 32 100000#32)))
          (constantI Cert.Pre_finite_inputs.S_ 1 1#1) hr hu ix0 = 1#1) :
    InRange x :=
  fun i => range_of_cmpi (x i) (Host.reduce_andi_all _ _ hr hu ix0 e0 i) (Host.reduce_andi_all _ _ hr hu ix0 e1 i)

/-- From the precondition (all ones): the eight float arrays hold real numbers and the endpoints are in `[0, 100000)`. -/
theorem of_pre (m : (ℓ : Loc nD τ sig) → Buf (Elt Ideal) ℓ) (h : Cert.Pre_KernelIdeal m) (c : Dev nD) :
    IsReal (s := SN) (m ((c.tc : Thread nD τ).loc main_arg0))
    ∧ InRange (m ((c.tc : Thread nD τ).loc main_arg1))
    ∧ IsReal (s := SE) (m ((c.tc : Thread nD τ).loc main_arg2))
    ∧ IsReal (s := SW) (m ((c.tc : Thread nD τ).loc main_arg3))
    ∧ IsReal (s := SW) (m ((c.tc : Thread nD τ).loc main_arg4))
    ∧ IsReal (s := SW) (m ((c.tc : Thread nD τ).loc main_arg5))
    ∧ IsReal (s := SW) (m ((c.tc : Thread nD τ).loc main_arg6))
    ∧ IsReal (s := SW) (m ((c.tc : Thread nD τ).loc main_arg7))
    ∧ IsReal (s := SW) (m ((c.tc : Thread nD τ).loc main_arg8)) := by
  -- the precondition's one truth value at its one index, the chain of bindings opened, the conjunction split
  have h0 := congrFun (h c) ValueIdx.ix0
  unfold Cert.Pre_finite_inputs.fn Cert.Pre_finite_inputs.fn_part1 Cert.Pre_finite_inputs.fn_part2 at h0
  simp only [andi, IntOp.andi_eq_one] at h0
  obtain ⟨⟨⟨⟨⟨⟨⟨⟨⟨e0, e2⟩, e3⟩, e4⟩, e5⟩, e6⟩, e7⟩, e8⟩, e1a⟩, e1b⟩ := h0
  exact ⟨isReal_of_all _ _ _ _ e0, inRange_of_all _ _ _ _ e1a e1b, isReal_of_all _ _ _ _ e2, isReal_of_all _ _ _ _ e3,
    isReal_of_all _ _ _ _ e4, isReal_of_all _ _ _ _ e5, isReal_of_all _ _ _ _ e6, isReal_of_all _ _ _ _ e7,
    isReal_of_all _ _ _ _ e8⟩

end Cert.KernelIdeal.PreFacts

end
-- ==== Proof.lean ====
/-
  The five claims for the message-passing layer: the kernel program (two pallas_calls among host operations) against the
  jnp reference, over the extended reals, for finite float inputs and edge endpoints that are node numbers.

  The three frames are the generated ones (the reference's is its generated run with the results dropped); the ideal pass
  rewrote nothing, so `preserves` is trivial. For `algebraic`: the kernel program's run ends with every buffer at the last
  boundary's contents, read back to `X · W₇ᵀ` and to the folded sum `kernelAgg` of the arguments; the reference's generated run
  ends with `X · W₇ᵀ` and the layered sum `refAgg`; the precondition makes every float entry real and every endpoint a node
  number, and on real entries the two sums agree by linearity.
-/
import proofs.«427212_j49555332662129_3_alg».proof.Defs
import proofs.«427212_j49555332662129_3_alg».proof.Proof.Gen.Kernel
import proofs.«427212_j49555332662129_3_alg».proof.Proof.Gen.Kernel.Frame
import proofs.«427212_j49555332662129_3_alg».proof.Proof.Gen.KernelIdeal
import proofs.«427212_j49555332662129_3_alg».proof.Proof.Gen.KernelIdeal.Frame
import proofs.«427212_j49555332662129_3_alg».proof.Proof.Gen.ReferenceIdeal
import proofs.«427212_j49555332662129_3_alg».proof.Proof.Gen.Pre_finite_inputs
import proofs.«427212_j49555332662129_3_alg».proof.Proof.Gen.ReferenceIdeal.Run
import proofs.«427212_j49555332662129_3_alg».proof.Proof.Gen.ReferenceIdeal.Read
import proofs.«427212_j49555332662129_3_alg».proof.Proof.KRun
import proofs.«427212_j49555332662129_3_alg».proof.Proof.KVal
import proofs.«427212_j49555332662129_3_alg».proof.Proof.RefVal
import proofs.«427212_j49555332662129_3_alg».proof.Proof.Bridge
import proofs.«427212_j49555332662129_3_alg».proof.Proof.PreFacts
import Idealize.ShloMosaic.Adequacy
import Idealize.ShloMosaic.Init

set_option maxRecDepth 16384

noncomputable section

namespace Cert.Proof

open Idealize.ShloMosaic Idealize.SL.Sem Cert.MsgPass

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with `X · W₇ᵀ` and with the sum, over the edges each node receives, of the edge messages. -/
theorem algebraic : Cert.algebraic_KernelIdeal_ReferenceIdeal := by
  intro m ρ m' ρ' hpre hagree
  refine ⟨fun c => mulT (a := 100000) (b := 32) (c := 32) (m ((c.tc : Thread Cert.KernelIdeal.nD Cert.KernelIdeal.τ).loc Cert.KernelIdeal.main_arg0)) (m ((c.tc : Thread Cert.KernelIdeal.nD Cert.KernelIdeal.τ).loc Cert.KernelIdeal.main_arg7)),
    fun c => kernelAgg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Gen.run_all m ρ)
    have hp := Cert.KernelIdeal.PreFacts.of_pre m hpre c
    exact ⟨(h c _ (Cert.KernelIdeal.Gen.mem_uc Cert.KernelIdeal.main_v8_2 (by decide))).trans (Cert.KernelIdeal.KVal.kernel_node m ρ c),
      (h c _ (Cert.KernelIdeal.Gen.mem_uc Cert.KernelIdeal.main_v25 (by decide))).trans (Cert.KernelIdeal.KVal.kernel_agg m ρ c hp.2.1),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c)⟩
  · refine (θ_run Cert.ReferenceIdeal.defs _ _).mono (fun r h c => ?_) (Cert.ReferenceIdeal.Value.run (F := Ideal) m' ρ')
    obtain ⟨h29, h34, hrest⟩ := h c
    obtain ⟨a0, a1, a2, a3, a4, a5, a6, a7, a8⟩ := hagree c
    obtain ⟨p0, p1, p2, p3, p4, p5, p6, _, p8⟩ := Cert.KernelIdeal.PreFacts.of_pre m hpre c
    refine ⟨?_, ?_, hrest⟩
    · rw [h29, Cert.ReferenceIdeal.Read.val_main_v29_eq, Cert.ReferenceIdeal.RefVal.ref_node, a0, a7]
    · rw [h34, Cert.ReferenceIdeal.Read.val_main_v34_eq, a0, a1, a2, a3, a4, a5, a6, a8]
      rw [Cert.ReferenceIdeal.RefVal.ref_agg _ _ _ _ _ _ _ _ p1]
      exact (agg_eq _ _ _ _ _ _ _ _ p0 p2 p3 p4 p5 p6 p8).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
